-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6000x32 : Shape := ⟨2, ![6000, 32]⟩
abbrev S12000x32 : Shape := ⟨2, ![12000, 32]⟩
abbrev S8000x32 : Shape := ⟨2, ![8000, 32]⟩
abbrev S6000x6000 : Shape := ⟨2, ![6000, 6000]⟩
abbrev S12000x6000 : Shape := ⟨2, ![12000, 6000]⟩
abbrev S12000x12000 : Shape := ⟨2, ![12000, 12000]⟩
abbrev S8000x12000 : Shape := ⟨2, ![8000, 12000]⟩
abbrev S8000x8000 : Shape := ⟨2, ![8000, 8000]⟩
abbrev S32x32 : Shape := ⟨2, ![32, 32]⟩
abbrev S_ : Shape := ⟨0, ![]⟩

class Facts : Prop where
  bcast_S_S6000x32 : S_.BroadcastsInDim S6000x32 (![] : Fin 0 → Fin S6000x32.rank)
  reducesTo_S6000x32_S_d0_1 : S6000x32.ReducesTo [0, 1] S_
  h_S_ : 0 < S_.numel
  bcast_S_S12000x32 : S_.BroadcastsInDim S12000x32 (![] : Fin 0 → Fin S12000x32.rank)
  reducesTo_S12000x32_S_d0_1 : S12000x32.ReducesTo [0, 1] S_
  bcast_S_S8000x32 : S_.BroadcastsInDim S8000x32 (![] : Fin 0 → Fin S8000x32.rank)
  reducesTo_S8000x32_S_d0_1 : S8000x32.ReducesTo [0, 1] S_
  bcast_S_S6000x6000 : S_.BroadcastsInDim S6000x6000 (![] : Fin 0 → Fin S6000x6000.rank)
  reducesTo_S6000x6000_S_d0_1 : S6000x6000.ReducesTo [0, 1] S_
  bcast_S_S12000x6000 : S_.BroadcastsInDim S12000x6000 (![] : Fin 0 → Fin S12000x6000.rank)
  reducesTo_S12000x6000_S_d0_1 : S12000x6000.ReducesTo [0, 1] S_
  bcast_S_S12000x12000 : S_.BroadcastsInDim S12000x12000 (![] : Fin 0 → Fin S12000x12000.rank)
  reducesTo_S12000x12000_S_d0_1 : S12000x12000.ReducesTo [0, 1] S_
  bcast_S_S8000x12000 : S_.BroadcastsInDim S8000x12000 (![] : Fin 0 → Fin S8000x12000.rank)
  reducesTo_S8000x12000_S_d0_1 : S8000x12000.ReducesTo [0, 1] S_
  bcast_S_S8000x8000 : S_.BroadcastsInDim S8000x8000 (![] : Fin 0 → Fin S8000x8000.rank)
  reducesTo_S8000x8000_S_d0_1 : S8000x8000.ReducesTo [0, 1] S_
  bcast_S_S32x32 : S_.BroadcastsInDim S32x32 (![] : Fin 0 → Fin S32x32.rank)
  reducesTo_S32x32_S_d0_1 : S32x32.ReducesTo [0, 1] S_

variable [Facts]

def fn_part3 {F : FTy → Type} [FloatOps F] (main_arg11 : FVec F S32x32 .f32) (main_arg12 : FVec F S32x32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32x32 .f32 := Host.absf main_arg12
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  main_v63

def fn_part2 {F : FTy → Type} [FloatOps F] (main_arg7 : FVec F S8000x8000 .f32) (main_arg8 : FVec F S32x32 .f32) (main_arg9 : FVec F S32x32 .f32) (main_arg10 : FVec F S32x32 .f32) (main_arg11 : FVec F S32x32 .f32) (main_arg12 : FVec F S32x32 .f32) (main_v33 : IVec S_ 1) : IVec S_ 1 :=
  let main_v34 : FVec F S8000x8000 .f32 := Host.absf main_arg7
  let main_cst_12 : FVec F S_ .f32 := constant S_ .f32 0x7F800000#32
  let main_v35 : FVec F S8000x8000 .f32 := broadcastInDim S8000x8000 ![] bcast_S_S8000x8000 main_cst_12
  let main_v36 : IVec S8000x8000 1 := cmpf .olt main_v34 main_v35
  let main_c_13 : IVec S_ 1 := constantI S_ 1 1#1
  let main_v37 : IVec S_ 1 := (fun x v => Host.reduce IntOp.andi x v reducesTo_S8000x8000_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg11 main_arg12 main_v48 main_v49 main_v50

def fn_part1 {F : FTy → Type} [FloatOps F] (main_arg4 : FVec F S12000x6000 .f32) (main_arg5 : FVec F S12000x12000 .f32) (main_arg6 : FVec F S8000x12000 .f32) (main_arg7 : FVec F S8000x8000 .f32) (main_arg8 : FVec F S32x32 .f32) (main_arg9 : FVec F S32x32 .f32) (main_arg10 : FVec F S32x32 .f32) (main_arg11 : FVec F S32x32 .f32) (main_arg12 : FVec F S32x32 .f32) (main_v13 : IVec S_ 1) (main_v16 : IVec S6000x6000 1) : IVec S_ 1 :=
  let main_c_5 : IVec S_ 1 := constantI S_ 1 1#1
  let main_v17 : IVec S_ 1 := (fun x v => Host.reduce IntOp.andi x v reducesTo_S6000x6000_S_d0_1 h_S_) main_v16 main_c_5
  let main_v18 : IVec S_ 1 := andi main_v13 main_v17
  let main_v19 : FVec F S12000x6000 .f32 := Host.absf main_arg4
  let main_cst_6 : FVec F S_ .f32 := constant S_ .f32 0x7F800000#32
  let main_v20 : FVec F S12000x6000 .f32 := broadcastInDim S12000x6000 ![] bcast_S_S12000x6000 main_cst_6
  let main_v21 : IVec S12000x6000 1 := cmpf .olt main_v19 main_v20
  let main_c_7 : IVec S_ 1 := constantI S_ 1 1#1
  let main_v22 : IVec S_ 1 := (fun x v => Host.reduce IntOp.andi x v reducesTo_S12000x6000_S_d0_1 h_S_) main_v21 main_c_7
  let main_v23 : IVec S_ 1 := andi main_v18 main_v22
  let main_v24 : FVec F S12000x12000 .f32 := Host.absf main_arg5
  let main_cst_8 : FVec F S_ .f32 := constant S_ .f32 0x7F800000#32
  let main_v25 : FVec F S12000x12000 .f32 := broadcastInDim S12000x12000 ![] bcast_S_S12000x12000 main_cst_8
  let main_v26 : IVec S12000x12000 1 := cmpf .olt main_v24 main_v25
  let main_c_9 : IVec S_ 1 := constantI S_ 1 1#1
  let main_v27 : IVec S_ 1 := (fun x v => Host.reduce IntOp.andi x v reducesTo_S12000x12000_S_d0_1 h_S_) main_v26 main_c_9
  let main_v28 : IVec S_ 1 := andi main_v23 main_v27
  let main_v29 : FVec F S8000x12000 .f32 := Host.absf main_arg6
  let main_cst_10 : FVec F S_ .f32 := constant S_ .f32 0x7F800000#32
  let main_v30 : FVec F S8000x12000 .f32 := broadcastInDim S8000x12000 ![] bcast_S_S8000x12000 main_cst_10
  let main_v31 : IVec S8000x12000 1 := cmpf .olt main_v29 main_v30
  let main_c_11 : IVec S_ 1 := constantI S_ 1 1#1
  let main_v32 : IVec S_ 1 := (fun x v => Host.reduce IntOp.andi x v reducesTo_S8000x12000_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S6000x32 .f32) (main_arg1 : FVec F S12000x32 .f32) (main_arg2 : FVec F S8000x32 .f32) (main_arg3 : FVec F S6000x6000 .f32) (main_arg4 : FVec F S12000x6000 .f32) (main_arg5 : FVec F S12000x12000 .f32) (main_arg6 : FVec F S8000x12000 .f32) (main_arg7 : FVec F S8000x8000 .f32) (main_arg8 : FVec F S32x32 .f32) (main_arg9 : FVec F S32x32 .f32) (main_arg10 : FVec F S32x32 .f32) (main_arg11 : FVec F S32x32 .f32) (main_arg12 : FVec F S32x32 .f32) : IVec S_ 1 :=
  let main_v0 : FVec F S6000x32 .f32 := Host.absf main_arg0
  let main_cst : FVec F S_ .f32 := constant S_ .f32 0x7F800000#32
  let main_v1 : FVec F S6000x32 .f32 := broadcastInDim S6000x32 ![] bcast_S_S6000x32 main_cst
  let main_v2 : IVec S6000x32 1 := cmpf .olt main_v0 main_v1
  let main_c : IVec S_ 1 := constantI S_ 1 1#1
  let main_v3 : IVec S_ 1 := (fun x v => Host.reduce IntOp.andi x v reducesTo_S6000x32_S_d0_1 h_S_) main_v2 main_c
  let main_v4 : FVec F S12000x32 .f32 := Host.absf main_arg1
  let main_cst_0 : FVec F S_ .f32 := constant S_ .f32 0x7F800000#32
  let main_v5 : FVec F S12000x32 .f32 := broadcastInDim S12000x32 ![] bcast_S_S12000x32 main_cst_0
  let main_v6 : IVec S12000x32 1 := cmpf .olt main_v4 main_v5
  let main_c_1 : IVec S_ 1 := constantI S_ 1 1#1
  let main_v7 : IVec S_ 1 := (fun x v => Host.reduce IntOp.andi x v reducesTo_S12000x32_S_d0_1 h_S_) main_v6 main_c_1
  let main_v8 : IVec S_ 1 := andi main_v3 main_v7
  let main_v9 : FVec F S8000x32 .f32 := Host.absf main_arg2
  let main_cst_2 : FVec F S_ .f32 := constant S_ .f32 0x7F800000#32
  let main_v10 : FVec F S8000x32 .f32 := broadcastInDim S8000x32 ![] bcast_S_S8000x32 main_cst_2
  let main_v11 : IVec S8000x32 1 := cmpf .olt main_v9 main_v10
  let main_c_3 : IVec S_ 1 := constantI S_ 1 1#1
  let main_v12 : IVec S_ 1 := (fun x v => Host.reduce IntOp.andi x v reducesTo_S8000x32_S_d0_1 h_S_) main_v11 main_c_3
  let main_v13 : IVec S_ 1 := andi main_v8 main_v12
  let main_v14 : FVec F S6000x6000 .f32 := Host.absf main_arg3
  let main_cst_4 : FVec F S_ .f32 := constant S_ .f32 0x7F800000#32
  let main_v15 : FVec F S6000x6000 .f32 := broadcastInDim S6000x6000 ![] bcast_S_S6000x6000 main_cst_4
  let main_v16 : IVec S6000x6000 1 := cmpf .olt main_v14 main_v15
  fn_part1 (F := F) main_arg4 main_arg5 main_arg6 main_arg7 main_arg8 main_arg9 main_arg10 main_arg11 main_arg12 main_v13 main_v16
-- ==== Kernel.lean ====
abbrev S6000x32 : Shape := ⟨2, ![6000, 32]⟩
abbrev S12000x32 : Shape := ⟨2, ![12000, 32]⟩
abbrev S8000x32 : Shape := ⟨2, ![8000, 32]⟩
abbrev S6000x6000 : Shape := ⟨2, ![6000, 6000]⟩
abbrev S12000x6000 : Shape := ⟨2, ![12000, 6000]⟩
abbrev S12000x12000 : Shape := ⟨2, ![12000, 12000]⟩
abbrev S8000x12000 : Shape := ⟨2, ![8000, 12000]⟩
abbrev S8000x8000 : Shape := ⟨2, ![8000, 8000]⟩
abbrev S32x32 : Shape := ⟨2, ![32, 32]⟩
abbrev S32x64 : Shape := ⟨2, ![32, 64]⟩
abbrev S6000x64 : Shape := ⟨2, ![6000, 64]⟩
abbrev S12000x64 : Shape := ⟨2, ![12000, 64]⟩
abbrev S240x6000 : Shape := ⟨2, ![240, 6000]⟩
abbrev S240x32 : Shape := ⟨2, ![240, 32]⟩
abbrev S600x6000 : Shape := ⟨2, ![600, 6000]⟩
abbrev S600x32 : Shape := ⟨2, ![600, 32]⟩
abbrev S240x12000 : Shape := ⟨2, ![240, 12000]⟩
abbrev S200x12000 : Shape := ⟨2, ![200, 12000]⟩
abbrev S200x32 : Shape := ⟨2, ![200, 32]⟩
abbrev S400x8000 : Shape := ⟨2, ![400, 8000]⟩
abbrev S400x32 : Shape := ⟨2, ![400, 32]⟩

abbrev nBuf : Space → Nat
  | .hbm => 29
  | .vmem => 25
  | .smem => 0
  | _ => 0

abbrev bufTy : (tb : Table) → Fin (tcTables nBuf tb) → BufTy
  | .hbm, ⟨0, _⟩ => ⟨S6000x32, .f32⟩
  | .hbm, ⟨1, _⟩ => ⟨S12000x32, .f32⟩
  | .hbm, ⟨2, _⟩ => ⟨S8000x32, .f32⟩
  | .hbm, ⟨3, _⟩ => ⟨S6000x6000, .f32⟩
  | .hbm, ⟨4, _⟩ => ⟨S12000x6000, .f32⟩
  | .hbm, ⟨5, _⟩ => ⟨S12000x12000, .f32⟩
  | .hbm, ⟨6, _⟩ => ⟨S8000x12000, .f32⟩
  | .hbm, ⟨7, _⟩ => ⟨S8000x8000, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S32x64, .f32⟩
  | .hbm, ⟨14, _⟩ => ⟨S6000x64, .f32⟩
  | .hbm, ⟨15, _⟩ => ⟨S6000x32, .f32⟩
  | .hbm, ⟨16, _⟩ => ⟨S6000x32, .f32⟩
  | .hbm, ⟨17, _⟩ => ⟨S32x64, .f32⟩
  | .hbm, ⟨18, _⟩ => ⟨S12000x64, .f32⟩
  | .hbm, ⟨19, _⟩ => ⟨S12000x32, .f32⟩
  | .hbm, ⟨20, _⟩ => ⟨S12000x32, .f32⟩
  | .hbm, ⟨21, _⟩ => ⟨S8000x32, .f32⟩
  | .hbm, ⟨22, _⟩ => ⟨S6000x32, .f32⟩
  | .hbm, ⟨23, _⟩ => ⟨S12000x32, .f32⟩
  | .hbm, ⟨24, _⟩ => ⟨S12000x32, .f32⟩
  | .hbm, ⟨25, _⟩ => ⟨S12000x32, .f32⟩
  | .hbm, ⟨26, _⟩ => ⟨S8000x32, .f32⟩
  | .hbm, ⟨27, _⟩ => ⟨S8000x32, .f32⟩
  | .hbm, ⟨28, _⟩ => ⟨S8000x32, .f32⟩
  | .local _ .vmem, ⟨0, _⟩ => ⟨S240x6000, .f32⟩
  | .local _ .vmem, ⟨1, _⟩ => ⟨S240x6000, .f32⟩
  | .local _ .vmem, ⟨2, _⟩ => ⟨S6000x32, .f32⟩
  | .local _ .vmem, ⟨3, _⟩ => ⟨S240x32, .f32⟩
  | .local _ .vmem, ⟨4, _⟩ => ⟨S240x32, .f32⟩
  | .local _ .vmem, ⟨5, _⟩ => ⟨S600x6000, .f32⟩
  | .local _ .vmem, ⟨6, _⟩ => ⟨S600x6000, .f32⟩
  | .local _ .vmem, ⟨7, _⟩ => ⟨S6000x32, .f32⟩
  | .local _ .vmem, ⟨8, _⟩ => ⟨S600x32, .f32⟩
  | .local _ .vmem, ⟨9, _⟩ => ⟨S600x32, .f32⟩
  | .local _ .vmem, ⟨10, _⟩ => ⟨S240x12000, .f32⟩
  | .local _ .vmem, ⟨11, _⟩ => ⟨S240x12000, .f32⟩
  | .local _ .vmem, ⟨12, _⟩ => ⟨S12000x32, .f32⟩
  | .local _ .vmem, ⟨13, _⟩ => ⟨S240x32, .f32⟩
  | .local _ .vmem, ⟨14, _⟩ => ⟨S240x32, .f32⟩
  | .local _ .vmem, ⟨15, _⟩ => ⟨S200x12000, .f32⟩
  | .local _ .vmem, ⟨16, _⟩ => ⟨S200x12000, .f32⟩
  | .local _ .vmem, ⟨17, _⟩ => ⟨S12000x32, .f32⟩
  | .local _ .vmem, ⟨18, _⟩ => ⟨S200x32, .f32⟩
  | .local _ .vmem, ⟨19, _⟩ => ⟨S200x32, .f32⟩
  | .local _ .vmem, ⟨20, _⟩ => ⟨S400x8000, .f32⟩
  | .local _ .vmem, ⟨21, _⟩ => ⟨S400x8000, .f32⟩
  | .local _ .vmem, ⟨22, _⟩ => ⟨S8000x32, .f32⟩
  | .local _ .vmem, ⟨23, _⟩ => ⟨S400x32, .f32⟩
  | .local _ .vmem, ⟨24, _⟩ => ⟨S400x32, .f32⟩
  | _, _ => ⟨S6000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S240x6000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6000x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S240x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S600x6000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S600x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S240x12000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S240x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x12000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S12000x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x8000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8000x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  concatenates_S32x32_S32x32_S32x64_d1 : Shape.Concatenates [S32x32, S32x32] S32x64 1
  slices_S6000x64_S6000x32_0_0 : S6000x64.Slices ![0, 0] S6000x32
  slices_S6000x64_S6000x32_0_32 : S6000x64.Slices ![0, 32] S6000x32
  slices_S12000x64_S12000x32_0_0 : S12000x64.Slices ![0, 0] S12000x32
  slices_S12000x64_S12000x32_0_32 : S12000x64.Slices ![0, 32] S12000x32
  inb_S240x6000_S240x6000_0_0 : ∀ a, (![0, 0] : Fin 2 → Nat) a + S240x6000.size a ≤ S240x6000.size a
  h_S240x6000 : 0 < S240x6000.numel
  inb_S6000x32_S6000x32_0_0 : ∀ a, (![0, 0] : Fin 2 → Nat) a + S6000x32.size a ≤ S6000x32.size a
  h_S6000x32 : 0 < S6000x32.numel
  shapeCasts_S6000x32_S6000x32 : S6000x32.ShapeCasts S6000x32
  inb_S240x32_S240x32_0_0 : ∀ a, (![0, 0] : Fin 2 → Nat) a + S240x32.size a ≤ S240x32.size a
  h_S240x32 : 0 < S240x32.numel
  inb_S600x6000_S600x6000_0_0 : ∀ a, (![0, 0] : Fin 2 → Nat) a + S600x6000.size a ≤ S600x6000.size a
  h_S600x6000 : 0 < S600x6000.numel
  inb_S600x32_S600x32_0_0 : ∀ a, (![0, 0] : Fin 2 → Nat) a + S600x32.size a ≤ S600x32.size a
  h_S600x32 : 0 < S600x32.numel
  inb_S240x12000_S240x12000_0_0 : ∀ a, (![0, 0] : Fin 2 → Nat) a + S240x12000.size a ≤ S240x12000.size a
  h_S240x12000 : 0 < S240x12000.numel
  inb_S12000x32_S12000x32_0_0 : ∀ a, (![0, 0] : Fin 2 → Nat) a + S12000x32.size a ≤ S12000x32.size a
  h_S12000x32 : 0 < S12000x32.numel
  shapeCasts_S12000x32_S12000x32 : S12000x32.ShapeCasts S12000x32
  inb_S200x12000_S200x12000_0_0 : ∀ a, (![0, 0] : Fin 2 → Nat) a + S200x12000.size a ≤ S200x12000.size a
  h_S200x12000 : 0 < S200x12000.numel
  inb_S200x32_S200x32_0_0 : ∀ a, (![0, 0] : Fin 2 → Nat) a + S200x32.size a ≤ S200x32.size a
  h_S200x32 : 0 < S200x32.numel
  inb_S400x8000_S400x8000_0_0 : ∀ a, (![0, 0] : Fin 2 → Nat) a + S400x8000.size a ≤ S400x8000.size a
  h_S400x8000 : 0 < S400x8000.numel
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S400x32_S400x32_0_0 : ∀ a, (![0, 0] : Fin 2 → Nat) a + S400x32.size a ≤ S400x32.size a
  h_S400x32 : 0 < S400x32.numel
  dot_S6000x32_S32x64_S6000x64_1_0_0_1_n_n_wf : DotDims.WF S6000x32 S32x64 S6000x64 [1] [0] [0] [1] [] []
  dot_S12000x32_S32x64_S12000x64_1_0_0_1_n_n_wf : DotDims.WF S12000x32 S32x64 S12000x64 [1] [0] [0] [1] [] []
  dot_S8000x32_S32x32_S8000x32_1_0_0_1_n_n_wf : DotDims.WF S8000x32 S32x32 S8000x32 [1] [0] [0] [1] [] []
  dot_S240x6000_S6000x32_S240x32_1_0_0_1_n_n_wf : DotDims.WF S240x6000 S6000x32 S240x32 [1] [0] [0] [1] [] []
  dot_S600x6000_S6000x32_S600x32_1_0_0_1_n_n_wf : DotDims.WF S600x6000 S6000x32 S600x32 [1] [0] [0] [1] [] []
  dot_S240x12000_S12000x32_S240x32_1_0_0_1_n_n_wf : DotDims.WF S240x12000 S12000x32 S240x32 [1] [0] [0] [1] [] []
  dot_S200x12000_S12000x32_S200x32_1_0_0_1_n_n_wf : DotDims.WF S200x12000 S12000x32 S200x32 [1] [0] [0] [1] [] []
  dot_S400x8000_S8000x32_S400x32_1_0_0_1_n_n_wf : DotDims.WF S400x8000 S8000x32 S400x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S240x6000.size a ≤ S6000x6000.size a
  hwx0_0 : ∀ i : grid0.Coords, EltTy.bits .f32 = 32 ∨ (Rect.block (s := S6000x6000) S240x6000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6000x32.size a ≤ S6000x32.size a
  hwx0_1 : ∀ i : grid0.Coords, EltTy.bits .f32 = 32 ∨ (Rect.block (s := S6000x32) S6000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S240x32.size a ≤ S6000x32.size a
  hwx0_2 : ∀ i : grid0.Coords, EltTy.bits .f32 = 32 ∨ (Rect.block (s := S6000x32) S240x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S600x6000.size a ≤ S12000x6000.size a
  hwx1_0 : ∀ i : grid1.Coords, EltTy.bits .f32 = 32 ∨ (Rect.block (s := S12000x6000) S600x6000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6000x32.size a ≤ S6000x32.size a
  hwx1_1 : ∀ i : grid1.Coords, EltTy.bits .f32 = 32 ∨ (Rect.block (s := S6000x32) S6000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S600x32.size a ≤ S12000x32.size a
  hwx1_2 : ∀ i : grid1.Coords, EltTy.bits .f32 = 32 ∨ (Rect.block (s := S12000x32) S600x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S240x12000.size a ≤ S12000x12000.size a
  hwx2_0 : ∀ i : grid2.Coords, EltTy.bits .f32 = 32 ∨ (Rect.block (s := S12000x12000) S240x12000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12000x32.size a ≤ S12000x32.size a
  hwx2_1 : ∀ i : grid2.Coords, EltTy.bits .f32 = 32 ∨ (Rect.block (s := S12000x32) S12000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S240x32.size a ≤ S12000x32.size a
  hwx2_2 : ∀ i : grid2.Coords, EltTy.bits .f32 = 32 ∨ (Rect.block (s := S12000x32) S240x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x12000.size a ≤ S8000x12000.size a
  hwx3_0 : ∀ i : grid3.Coords, EltTy.bits .f32 = 32 ∨ (Rect.block (s := S8000x12000) S200x12000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S12000x32.size a ≤ S12000x32.size a
  hwx3_1 : ∀ i : grid3.Coords, EltTy.bits .f32 = 32 ∨ (Rect.block (s := S12000x32) S12000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x32.size a ≤ S8000x32.size a
  hwx3_2 : ∀ i : grid3.Coords, EltTy.bits .f32 = 32 ∨ (Rect.block (s := S8000x32) S200x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x8000.size a ≤ S8000x8000.size a
  hwx4_0 : ∀ i : grid4.Coords, EltTy.bits .f32 = 32 ∨ (Rect.block (s := S8000x8000) S400x8000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8000x32.size a ≤ S8000x32.size a
  hwx4_1 : ∀ i : grid4.Coords, EltTy.bits .f32 = 32 ∨ (Rect.block (s := S8000x32) S8000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x32.size a ≤ S8000x32.size a
  hwx4_2 : ∀ i : grid4.Coords, EltTy.bits .f32 = 32 ∨ (Rect.block (s := S8000x32) S400x32.size (cc4_transform_2 i) (hinb4_2 i)).WholeWords (EltTy.packing .f32)

variable [Facts₀]

def dot_S6000x32_S32x64_S6000x64_1_0_0_1_n_n : DotDims S6000x32 S32x64 S6000x64 where
  lhsContracting := [1]
  rhsContracting := [0]
  lhsNonContracting := [0]
  rhsNonContracting := [1]
  lhsBatch := []
  rhsBatch := []
  wf := dot_S6000x32_S32x64_S6000x64_1_0_0_1_n_n_wf
def dot_S12000x32_S32x64_S12000x64_1_0_0_1_n_n : DotDims S12000x32 S32x64 S12000x64 where
  lhsContracting := [1]
  rhsContracting := [0]
  lhsNonContracting := [0]
  rhsNonContracting := [1]
  lhsBatch := []
  rhsBatch := []
  wf := dot_S12000x32_S32x64_S12000x64_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S240x6000_S6000x32_S240x32_1_0_0_1_n_n : DotDims S240x6000 S6000x32 S240x32 where
  lhsContracting := [1]
  rhsContracting := [0]
  lhsNonContracting := [0]
  rhsNonContracting := [1]
  lhsBatch := []
  rhsBatch := []
  wf := dot_S240x6000_S6000x32_S240x32_1_0_0_1_n_n_wf
def dot_S600x6000_S6000x32_S600x32_1_0_0_1_n_n : DotDims S600x6000 S6000x32 S600x32 where
  lhsContracting := [1]
  rhsContracting := [0]
  lhsNonContracting := [0]
  rhsNonContracting := [1]
  lhsBatch := []
  rhsBatch := []
  wf := dot_S600x6000_S6000x32_S600x32_1_0_0_1_n_n_wf
def dot_S240x12000_S12000x32_S240x32_1_0_0_1_n_n : DotDims S240x12000 S12000x32 S240x32 where
  lhsContracting := [1]
  rhsContracting := [0]
  lhsNonContracting := [0]
  rhsNonContracting := [1]
  lhsBatch := []
  rhsBatch := []
  wf := dot_S240x12000_S12000x32_S240x32_1_0_0_1_n_n_wf
def dot_S200x12000_S12000x32_S200x32_1_0_0_1_n_n : DotDims S200x12000 S12000x32 S200x32 where
  lhsContracting := [1]
  rhsContracting := [0]
  lhsNonContracting := [0]
  rhsNonContracting := [1]
  lhsBatch := []
  rhsBatch := []
  wf := dot_S200x12000_S12000x32_S200x32_1_0_0_1_n_n_wf
def dot_S400x8000_S8000x32_S400x32_1_0_0_1_n_n : DotDims S400x8000 S8000x32 S400x32 where
  lhsContracting := [1]
  rhsContracting := [0]
  lhsNonContracting := [0]
  rhsNonContracting := [1]
  lhsBatch := []
  rhsBatch := []
  wf := dot_S400x8000_S8000x32_S400x32_1_0_0_1_n_n_wf

abbrev win0_0 : Pipeline.Window sig grid0 :=
  Pipeline.Window.ofSpec (Memref.whole main_arg3) S240x6000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S6000x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S240x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg4) S600x6000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S6000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S600x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg5) S240x12000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S12000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S240x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg6) S200x12000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S12000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S200x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg7) S400x8000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S8000x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S400x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S6000x32 : Shape := ⟨2, ![6000, 32]⟩
abbrev S12000x32 : Shape := ⟨2, ![12000, 32]⟩
abbrev S8000x32 : Shape := ⟨2, ![8000, 32]⟩
abbrev S6000x6000 : Shape := ⟨2, ![6000, 6000]⟩
abbrev S12000x6000 : Shape := ⟨2, ![12000, 6000]⟩
abbrev S12000x12000 : Shape := ⟨2, ![12000, 12000]⟩
abbrev S8000x12000 : Shape := ⟨2, ![8000, 12000]⟩
abbrev S8000x8000 : Shape := ⟨2, ![8000, 8000]⟩
abbrev S32x32 : Shape := ⟨2, ![32, 32]⟩

abbrev nBuf : Space → Nat
  | .hbm => 25
  | .vmem => 0
  | .smem => 0
  | _ => 0

abbrev bufTy : (tb : Table) → Fin (tcTables nBuf tb) → BufTy
  | .hbm, ⟨0, _⟩ => ⟨S6000x32, .f32⟩
  | .hbm, ⟨1, _⟩ => ⟨S12000x32, .f32⟩
  | .hbm, ⟨2, _⟩ => ⟨S8000x32, .f32⟩
  | .hbm, ⟨3, _⟩ => ⟨S6000x6000, .f32⟩
  | .hbm, ⟨4, _⟩ => ⟨S12000x6000, .f32⟩
  | .hbm, ⟨5, _⟩ => ⟨S12000x12000, .f32⟩
  | .hbm, ⟨6, _⟩ => ⟨S8000x12000, .f32⟩
  | .hbm, ⟨7, _⟩ => ⟨S8000x8000, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S6000x32, .f32⟩
  | .hbm, ⟨14, _⟩ => ⟨S6000x32, .f32⟩
  | .hbm, ⟨15, _⟩ => ⟨S6000x32, .f32⟩
  | .hbm, ⟨16, _⟩ => ⟨S12000x32, .f32⟩
  | .hbm, ⟨17, _⟩ => ⟨S12000x32, .f32⟩
  | .hbm, ⟨18, _⟩ => ⟨S12000x32, .f32⟩
  | .hbm, ⟨19, _⟩ => ⟨S12000x32, .f32⟩
  | .hbm, ⟨20, _⟩ => ⟨S12000x32, .f32⟩
  | .hbm, ⟨21, _⟩ => ⟨S8000x32, .f32⟩
  | .hbm, ⟨22, _⟩ => ⟨S8000x32, .f32⟩
  | .hbm, ⟨23, _⟩ => ⟨S8000x32, .f32⟩
  | .hbm, ⟨24, _⟩ => ⟨S8000x32, .f32⟩
  | _, _ => ⟨S6000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  dot_S6000x32_S32x32_S6000x32_1_0_0_1_n_n_wf : DotDims.WF S6000x32 S32x32 S6000x32 [1] [0] [0] [1] [] []
  dot_S6000x6000_S6000x32_S6000x32_1_0_0_1_n_n_wf : DotDims.WF S6000x6000 S6000x32 S6000x32 [1] [0] [0] [1] [] []
  dot_S12000x6000_S6000x32_S12000x32_1_0_0_1_n_n_wf : DotDims.WF S12000x6000 S6000x32 S12000x32 [1] [0] [0] [1] [] []
  dot_S12000x32_S32x32_S12000x32_1_0_0_1_n_n_wf : DotDims.WF S12000x32 S32x32 S12000x32 [1] [0] [0] [1] [] []
  dot_S12000x12000_S12000x32_S12000x32_1_0_0_1_n_n_wf : DotDims.WF S12000x12000 S12000x32 S12000x32 [1] [0] [0] [1] [] []
  dot_S8000x12000_S12000x32_S8000x32_1_0_0_1_n_n_wf : DotDims.WF S8000x12000 S12000x32 S8000x32 [1] [0] [0] [1] [] []
  dot_S8000x32_S32x32_S8000x32_1_0_0_1_n_n_wf : DotDims.WF S8000x32 S32x32 S8000x32 [1] [0] [0] [1] [] []
  dot_S8000x8000_S8000x32_S8000x32_1_0_0_1_n_n_wf : DotDims.WF S8000x8000 S8000x32 S8000x32 [1] [0] [0] [1] [] []

variable [Facts₀]

def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def dot_S6000x6000_S6000x32_S6000x32_1_0_0_1_n_n : DotDims S6000x6000 S6000x32 S6000x32 where
  lhsContracting := [1]
  rhsContracting := [0]
  lhsNonContracting := [0]
  rhsNonContracting := [1]
  lhsBatch := []
  rhsBatch := []
  wf := dot_S6000x6000_S6000x32_S6000x32_1_0_0_1_n_n_wf
def dot_S12000x6000_S6000x32_S12000x32_1_0_0_1_n_n : DotDims S12000x6000 S6000x32 S12000x32 where
  lhsContracting := [1]
  rhsContracting := [0]
  lhsNonContracting := [0]
  rhsNonContracting := [1]
  lhsBatch := []
  rhsBatch := []
  wf := dot_S12000x6000_S6000x32_S12000x32_1_0_0_1_n_n_wf
def dot_S12000x32_S32x32_S12000x32_1_0_0_1_n_n : DotDims S12000x32 S32x32 S12000x32 where
  lhsContracting := [1]
  rhsContracting := [0]
  lhsNonContracting := [0]
  rhsNonContracting := [1]
  lhsBatch := []
  rhsBatch := []
  wf := dot_S12000x32_S32x32_S12000x32_1_0_0_1_n_n_wf
def dot_S12000x12000_S12000x32_S12000x32_1_0_0_1_n_n : DotDims S12000x12000 S12000x32 S12000x32 where
  lhsContracting := [1]
  rhsContracting := [0]
  lhsNonContracting := [0]
  rhsNonContracting := [1]
  lhsBatch := []
  rhsBatch := []
  wf := dot_S12000x12000_S12000x32_S12000x32_1_0_0_1_n_n_wf
def dot_S8000x12000_S12000x32_S8000x32_1_0_0_1_n_n : DotDims S8000x12000 S12000x32 S8000x32 where
  lhsContracting := [1]
  rhsContracting := [0]
  lhsNonContracting := [0]
  rhsNonContracting := [1]
  lhsBatch := []
  rhsBatch := []
  wf := dot_S8000x12000_S12000x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S8000x8000_S8000x32_S8000x32_1_0_0_1_n_n : DotDims S8000x8000 S8000x32 S8000x32 where
  lhsContracting := [1]
  rhsContracting := [0]
  lhsNonContracting := [0]
  rhsNonContracting := [1]
  lhsBatch := []
  rhsBatch := []
  wf := dot_S8000x8000_S8000x32_S8000x32_1_0_0_1_n_n_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.MatProd.lean ====
/-
  The product of two matrices of extended reals, entry by entry, and the printed operations that compute it.

  `mm A B` is the matrix whose entry (p, q) is the sum over k of A (p, k) · B (k, q): a finite sum in the extended reals,
  whose addition is commutative and associative, so the sum is one value whatever the order of its terms.
  At the ideal values both the vector unit's matrix product into a zero accumulator and the host's `dot_general` with the
  plain dimension numbers ([M, K] × [K, N], left axis 1 against right axis 0, no batch axis) are `mm`.
  Two weight matrices laid side by side, multiplied once, and the product cut back into its two column halves: the
  left half is the product with the left matrix, the right half the product with the right matrix, because entry
  (k, q) of [a | b] is a (k, q) for q below the width of a and b (k, q − width) from there on.
-/
import Idealize.ShloMosaic.PureOps.Ideal.Laws
import Idealize.ShloMosaic.Lib.ValueIdx
import Idealize.ShloMosaic.Lib.Pipeline.Value
import proofs.«143308_j19696720019795_2_alg».proof.Proof.LibPlainMatmul

noncomputable section

open scoped BigOperators
open Idealize.ShloMosaic Idealize.ShloMosaic.ValueIdx

namespace Cert.MatProd

variable {M K N N2 : Nat}

/-- The matrix product, entry by entry. -/
def mm (A : FVec Ideal ⟨2, ![M, K]⟩ .f32) (B : FVec Ideal ⟨2, ![K, N]⟩ .f32) : FVec Ideal ⟨2, ![M, N]⟩ .f32 :=
  fun j => ∑ k : Fin K, A (ix2 (n0 := M) (j 0) k) * B (ix2 (n1 := N) k (j 1))

theorem mm_apply (A : FVec Ideal ⟨2, ![M, K]⟩ .f32) (B : FVec Ideal ⟨2, ![K, N]⟩ .f32) (p : Fin M) (q : Fin N) :
    mm A B (ix2 p q) = ∑ k : Fin K, A (ix2 p k) * B (ix2 k q) := rfl

/-- The vector unit's product into the zero accumulator is `mm`. -/
theorem matmul_zero_eq (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ .f32) (rhs : FVec Ideal ⟨2, ![K, N]⟩ .f32) :
    FloatOps.matmul d prec lhs rhs (constant (F := Ideal) ⟨2, ![M, N]⟩ .f32 0x00000000#32) = mm lhs rhs := by
  funext j
  obtain ⟨p, q, rfl⟩ : ∃ (p : Fin M) (q : Fin N), j = ix2 p q := ⟨j 0, j 1, eq_ix2 j⟩
  exact Cert.Lib.PlainMatmul.apply d hlc hrc hln hrn hlb hrb prec lhs rhs p q

/-- The host's product over the plain dimension numbers, at entry (p, q). -/
theorem hostDot_apply_dims (wf : DotDims.WF (⟨2, ![M, K]⟩ : Shape) ⟨2, ![K, N]⟩ ⟨2, ![M, N]⟩ [1] [0] [0] [1] [] [])
    (prec : Option ContractPrecision) (sched : HostSchedule) (lhs : FVec Ideal ⟨2, ![M, K]⟩ .f32)
    (rhs : FVec Ideal ⟨2, ![K, N]⟩ .f32) (p : Fin M) (q : Fin N) :
    FloatOps.dotGeneral (Cert.Lib.PlainMatmul.dims wf) prec sched lhs rhs (ix2 p q) = ∑ k : Fin K, lhs (ix2 p k) * rhs (ix2 k q) := by
  rw [Ideal.dotGeneral_apply, ← Equiv.sum_comp (contrEquiv1 (Cert.Lib.PlainMatmul.dims wf) K rfl rfl).symm]
  refine Finset.sum_congr rfl fun k _ => ?_
  have hk := contrEquiv1_symm_val (Cert.Lib.PlainMatmul.dims wf) K rfl rfl k
  have el : (Cert.Lib.PlainMatmul.dims wf).lhsIdx (ix2 p q) ((contrEquiv1 (Cert.Lib.PlainMatmul.dims wf) K rfl rfl).symm k) = ix2 p k :=
    funext fun a => Fin.ext (by
      match a with
      | ⟨0, _⟩ => exact Cert.Lib.PlainMatmul.lhs_row wf _ _
      | ⟨1, _⟩ => exact (Cert.Lib.PlainMatmul.lhs_col wf _ _).trans hk)
  have er : (Cert.Lib.PlainMatmul.dims wf).rhsIdx (ix2 p q) ((contrEquiv1 (Cert.Lib.PlainMatmul.dims wf) K rfl rfl).symm k) = ix2 k q :=
    funext fun a => Fin.ext (by
      match a with
      | ⟨0, _⟩ => exact (Cert.Lib.PlainMatmul.rhs_row wf _ _).trans hk
      | ⟨1, _⟩ => exact Cert.Lib.PlainMatmul.rhs_col wf _ _)
  rw [el, er]

/-- The host's product over any record with the plain dimension numbers is `mm`. -/
theorem hostDot_eq (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![M, K]⟩ .f32)
    (rhs : FVec Ideal ⟨2, ![K, N]⟩ .f32) :
    FloatOps.dotGeneral d prec sched lhs rhs = mm lhs rhs := by
  obtain ⟨lc, rc, ln, rn, lb, rb, wf⟩ := d
  dsimp only at hlc hrc hln hrn hlb hrb
  subst hlc hrc hln hrn hlb hrb
  funext j
  obtain ⟨p, q, rfl⟩ : ∃ (p : Fin M) (q : Fin N), j = ix2 p q := ⟨j 0, j 1, eq_ix2 j⟩
  exact hostDot_apply_dims wf prec sched lhs rhs p q

/-- The left column half of x · [a | b] is x · a. -/
theorem cols_left (x : FVec Ideal ⟨2, ![M, K]⟩ .f32) (a b : FVec Ideal ⟨2, ![K, N]⟩ .f32)
    (hc : Shape.Concatenates [(⟨2, ![K, N]⟩ : Shape), ⟨2, ![K, N]⟩] ⟨2, ![K, N2]⟩ 1)
    (hs : (⟨2, ![M, N2]⟩ : Shape).Slices ![0, 0] ⟨2, ![M, N]⟩) :
    extractStridedSlice ⟨2, ![M, N]⟩ ![0, 0]
        (mm x (concatenate ⟨2, ![K, N2]⟩ 1 [⟨⟨2, ![K, N]⟩, a⟩, ⟨⟨2, ![K, N]⟩, b⟩] hc)) hs = mm x a := by
  funext j
  obtain ⟨p, q, rfl⟩ : ∃ (p : Fin M) (q : Fin N), j = ix2 p q := ⟨j 0, j 1, eq_ix2 j⟩
  have hle : 0 + N ≤ N2 := hs.2 1
  have hq : q.val < N2 := by have := q.isLt; omega
  rw [extractStridedSlice_apply ![0, 0] _ hs (ix2 p q) (ix2 p (⟨q.val, hq⟩ : Fin N2)) (fun a => by
    match a with
    | ⟨0, _⟩ => exact (Nat.zero_add _).symm
    | ⟨1, _⟩ => exact (Nat.zero_add _).symm)]
  rw [mm_apply, mm_apply]
  refine Finset.sum_congr rfl fun k _ => ?_
  rw [concatenate_pair_apply_left (1 : Fin 2) a b hc (ix2 k (⟨q.val, hq⟩ : Fin N2)) rfl (ix2 k q) (fun c => by
    match c with
    | ⟨0, _⟩ => rfl
    | ⟨1, _⟩ => rfl)]

/-- The right column half of x · [a | b] is x · b. -/
theorem cols_right (x : FVec Ideal ⟨2, ![M, K]⟩ .f32) (a b : FVec Ideal ⟨2, ![K, N]⟩ .f32)
    (hc : Shape.Concatenates [(⟨2, ![K, N]⟩ : Shape), ⟨2, ![K, N]⟩] ⟨2, ![K, N2]⟩ 1)
    (hs : (⟨2, ![M, N2]⟩ : Shape).Slices ![0, N] ⟨2, ![M, N]⟩) :
    extractStridedSlice ⟨2, ![M, N]⟩ ![0, N]
        (mm x (concatenate ⟨2, ![K, N2]⟩ 1 [⟨⟨2, ![K, N]⟩, a⟩, ⟨⟨2, ![K, N]⟩, b⟩] hc)) hs = mm x b := by
  funext j
  obtain ⟨p, q, rfl⟩ : ∃ (p : Fin M) (q : Fin N), j = ix2 p q := ⟨j 0, j 1, eq_ix2 j⟩
  have hle : N + N ≤ N2 := hs.2 1
  have hq : N + q.val < N2 := by have := q.isLt; omega
  rw [extractStridedSlice_apply ![0, N] _ hs (ix2 p q) (ix2 p (⟨N + q.val, hq⟩ : Fin N2)) (fun a => by
    match a with
    | ⟨0, _⟩ => exact (Nat.zero_add _).symm
    | ⟨1, _⟩ => rfl)]
  rw [mm_apply, mm_apply]
  refine Finset.sum_congr rfl fun k _ => ?_
  rw [concatenate_pair_apply_right (1 : Fin 2) a b hc (ix2 k (⟨N + q.val, hq⟩ : Fin N2)) rfl rfl (ix2 k q) (fun c hne => by
    match c, hne with
    | ⟨0, _⟩, _ => rfl
    | ⟨1, _⟩, hne => exact absurd rfl hne) (Nat.add_comm _ _)]

end Cert.MatProd

end
-- ==== Proof.Blocks0.lean ====
/-
  Region 0 of the program: the pipelined product of the [6000, 6000] matrix, taken 240 rows at a time, with the whole
  [6000, 32] matrix. Grid point t loads the 240 rows of the left matrix from row 240·t on and the whole right matrix, and stores their product,
  which is the same 240 rows of the whole product: entry (p, q) of a row block's product is the sum over k of
  left (240·t + p, k) · right (k, q). The 25 row blocks tile the 6000 rows (row r lies in block r / 240), so after the last
  point the output array holds the whole product of the two arrays as the region found them.
-/
import proofs.«143308_j19696720019795_2_alg».proof.Proof.Gen.KernelIdeal.Frame
import proofs.«143308_j19696720019795_2_alg».proof.Proof.MatProd

set_option maxRecDepth 16384

noncomputable section

namespace Cert.KernelIdeal.Blocks0

open Cert.KernelIdeal Cert.KernelIdeal.Gen Cert.MatProd
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The left matrix as the region finds it. -/
abbrev left (c : Dev nD) : FVec Ideal S6000x6000 .f32 := V c main_arg3
/-- The right matrix as the region finds it. -/
abbrev right (c : Dev nD) : FVec Ideal S6000x32 .f32 := V c main_v2

theorem origin : (![0, 0] : Fin 2 → Nat) = fun _ => 0 := funext fun a => by fin_cases a <;> rfl

/-- The body's one store is the product of the two blocks it loads. -/
theorem store_eq (x0 : Vec Ideal S240x6000 .f32) (x1 : Vec Ideal S6000x32 .f32) : k0_pay1 x0 x1 = mm x0 x1 := by
  unfold k0_pay1
  show FloatOps.matmul dot_S240x6000_S6000x32_S240x32_1_0_0_1_n_n none x0 (shapeCast S6000x32 x1 shapeCasts_S6000x32_S6000x32)
    (constant (F := Ideal) S240x32 .f32 0x00000000#32) = _
  rw [shapeCast_self]
  exact matmul_zero_eq _ rfl rfl rfl rfl rfl rfl none x0 x1

/-- Where the three windows' blocks sit at each grid point: the left matrix's and the output's row block is the point's
    number, and every other block index is zero. -/
theorem where_blocks : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is its row block of the whole product. -/
theorem flushed_eq (c : Dev nD) (t : Fin cfg0.N) :
    (dat0 V c).flushed 2 t = ((cfg0.win 2).blk t).view.read (Elt Ideal) (mm (left V c) (right V c)) := by
  show (cfg0.win 2).cut (grid0.coords t) ((dat0 V c).after 2 t) = _
  rw [after0_2]
  unfold out0_2
  rw [View.canon_unit_zero origin]
  simp only [View.ld_unit_zero (S := S240x6000) origin, View.ld_unit_zero (S := S6000x32) origin]
  rw [store_eq]
  obtain ⟨e0, e1, e2, e3, e4, e5⟩ := where_blocks t
  funext j
  show ∑ k : Fin 6000, left V c (((cfg0.win 0).blk t).view.emb (ix2 (j 0) k)) * right V c (((cfg0.win 1).blk t).view.emb (ix2 k (j 1)))
    = ∑ k : Fin 6000, left V c (ix2 ((((cfg0.win 2).blk t).view.emb j) 0) k) * right V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 240 + 1 * (j 0).val = win0_2.index t (0 : Fin 2) * 240 + 1 * (j 0).val; omega
    | ⟨1, _⟩ => show win0_0.index t (1 : Fin 2) * 6000 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 6000 + 1 * k.val = k.val; omega
    | ⟨1, _⟩ => show win0_1.index t (1 : Fin 2) * 32 + 1 * (j 1).val = win0_2.index t (1 : Fin 2) * 32 + 1 * (j 1).val; omega
  rw [h0, h1]
  rfl

/-- An entry of the output array is in point `t`'s block iff each coordinate is in the block's range on its axis. -/
theorem mem_block (t : Fin cfg0.N) (i : S6000x32.Idx) :
    i ∈ ((cfg0.win 2).blk t).view.set ↔ ∀ a : Fin 2, win0_2.index t a * S240x32.size a ≤ (i a).val ∧ (i a).val < win0_2.index t a * S240x32.size a + S240x32.size a := by
  show i ∈ ((View.whole main_v9).slice (win0_2.rect t)).set ↔ _
  rw [View.set_slice_whole, Rect.mem_set_unit]
  exact Iff.rfl

/-- Every entry of the output array lies in some point's block: row r in block r / 240. -/
theorem covered (i : S6000x32.Idx) :
    ∃ t : Fin cfg0.N, (cfg0.win 2).flush t = true ∧ i ∈ ((cfg0.win 2).blk t).view.set := by
  have hi0 : (i 0).val < 6000 := (i 0).isLt
  have hi1 : (i 1).val < 32 := (i 1).isLt
  let t : Fin cfg0.N := ⟨(i 0).val / 240, by show (i 0).val / 240 < 25; omega⟩
  obtain ⟨e0, e1, e2, e3, e4, e5⟩ := where_blocks t
  have e4' : win0_2.index t (0 : Fin 2) = (i 0).val / 240 := e4
  refine ⟨t, flush0_2 t, ?_⟩
  rw [mem_block]
  intro a
  match a with
  | ⟨0, _⟩ => show win0_2.index t (0 : Fin 2) * 240 ≤ (i 0).val ∧ (i 0).val < win0_2.index t (0 : Fin 2) * 240 + 240; omega
  | ⟨1, _⟩ => show win0_2.index t (1 : Fin 2) * 32 ≤ (i 1).val ∧ (i 1).val < win0_2.index t (1 : Fin 2) * 32 + 32; omega

/-- After the region's last point the output array holds the product of the two arrays as the region found them. -/
theorem product (c : Dev nD) : (dat0 V c).arrAt 2 cfg0.N = mm (left V c) (right V c) :=
  (dat0 V c).arrAt_eq_of_cover 2 (mm (left V c) (right V c)) (fun t _ => flushed_eq V c t) covered

end Cert.KernelIdeal.Blocks0

end
-- ==== Proof.Blocks1.lean ====
/-
  Region 1 of the program: the pipelined product of the [12000, 6000] matrix, taken 600 rows at a time, with the whole
  [6000, 32] matrix. Grid point t loads the 600 rows of the left matrix from row 600·t on and the whole right matrix, and stores their product,
  which is the same 600 rows of the whole product: entry (p, q) of a row block's product is the sum over k of
  left (600·t + p, k) · right (k, q). The 20 row blocks tile the 12000 rows (row r lies in block r / 600), so after the last
  point the output array holds the whole product of the two arrays as the region found them.
-/
import proofs.«143308_j19696720019795_2_alg».proof.Proof.Gen.KernelIdeal.Frame
import proofs.«143308_j19696720019795_2_alg».proof.Proof.MatProd

set_option maxRecDepth 16384

noncomputable section

namespace Cert.KernelIdeal.Blocks1

open Cert.KernelIdeal Cert.KernelIdeal.Gen Cert.MatProd
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The left matrix as the region finds it. -/
abbrev left (c : Dev nD) : FVec Ideal S12000x6000 .f32 := V c main_arg4
/-- The right matrix as the region finds it. -/
abbrev right (c : Dev nD) : FVec Ideal S6000x32 .f32 := V c main_v3

theorem origin : (![0, 0] : Fin 2 → Nat) = fun _ => 0 := funext fun a => by fin_cases a <;> rfl

/-- The body's one store is the product of the two blocks it loads. -/
theorem store_eq (x0 : Vec Ideal S600x6000 .f32) (x1 : Vec Ideal S6000x32 .f32) : k1_pay1 x0 x1 = mm x0 x1 := by
  unfold k1_pay1
  show FloatOps.matmul dot_S600x6000_S6000x32_S600x32_1_0_0_1_n_n none x0 (shapeCast S6000x32 x1 shapeCasts_S6000x32_S6000x32)
    (constant (F := Ideal) S600x32 .f32 0x00000000#32) = _
  rw [shapeCast_self]
  exact matmul_zero_eq _ rfl rfl rfl rfl rfl rfl none x0 x1

/-- Where the three windows' blocks sit at each grid point: the left matrix's and the output's row block is the point's
    number, and every other block index is zero. -/
theorem where_blocks : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is its row block of the whole product. -/
theorem flushed_eq (c : Dev nD) (t : Fin cfg1.N) :
    (dat1 V c).flushed 2 t = ((cfg1.win 2).blk t).view.read (Elt Ideal) (mm (left V c) (right V c)) := by
  show (cfg1.win 2).cut (grid1.coords t) ((dat1 V c).after 2 t) = _
  rw [after1_2]
  unfold out1_2
  rw [View.canon_unit_zero origin]
  simp only [View.ld_unit_zero (S := S600x6000) origin, View.ld_unit_zero (S := S6000x32) origin]
  rw [store_eq]
  obtain ⟨e0, e1, e2, e3, e4, e5⟩ := where_blocks t
  funext j
  show ∑ k : Fin 6000, left V c (((cfg1.win 0).blk t).view.emb (ix2 (j 0) k)) * right V c (((cfg1.win 1).blk t).view.emb (ix2 k (j 1)))
    = ∑ k : Fin 6000, left V c (ix2 ((((cfg1.win 2).blk t).view.emb j) 0) k) * right V c (ix2 k ((((cfg1.win 2).blk t).view.emb j) 1))
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 600 + 1 * (j 0).val = win1_2.index t (0 : Fin 2) * 600 + 1 * (j 0).val; omega
    | ⟨1, _⟩ => show win1_0.index t (1 : Fin 2) * 6000 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 6000 + 1 * k.val = k.val; omega
    | ⟨1, _⟩ => show win1_1.index t (1 : Fin 2) * 32 + 1 * (j 1).val = win1_2.index t (1 : Fin 2) * 32 + 1 * (j 1).val; omega
  rw [h0, h1]
  rfl

/-- An entry of the output array is in point `t`'s block iff each coordinate is in the block's range on its axis. -/
theorem mem_block (t : Fin cfg1.N) (i : S12000x32.Idx) :
    i ∈ ((cfg1.win 2).blk t).view.set ↔ ∀ a : Fin 2, win1_2.index t a * S600x32.size a ≤ (i a).val ∧ (i a).val < win1_2.index t a * S600x32.size a + S600x32.size a := by
  show i ∈ ((View.whole main_v10).slice (win1_2.rect t)).set ↔ _
  rw [View.set_slice_whole, Rect.mem_set_unit]
  exact Iff.rfl

/-- Every entry of the output array lies in some point's block: row r in block r / 600. -/
theorem covered (i : S12000x32.Idx) :
    ∃ t : Fin cfg1.N, (cfg1.win 2).flush t = true ∧ i ∈ ((cfg1.win 2).blk t).view.set := by
  have hi0 : (i 0).val < 12000 := (i 0).isLt
  have hi1 : (i 1).val < 32 := (i 1).isLt
  let t : Fin cfg1.N := ⟨(i 0).val / 600, by show (i 0).val / 600 < 20; omega⟩
  obtain ⟨e0, e1, e2, e3, e4, e5⟩ := where_blocks t
  have e4' : win1_2.index t (0 : Fin 2) = (i 0).val / 600 := e4
  refine ⟨t, flush1_2 t, ?_⟩
  rw [mem_block]
  intro a
  match a with
  | ⟨0, _⟩ => show win1_2.index t (0 : Fin 2) * 600 ≤ (i 0).val ∧ (i 0).val < win1_2.index t (0 : Fin 2) * 600 + 600; omega
  | ⟨1, _⟩ => show win1_2.index t (1 : Fin 2) * 32 ≤ (i 1).val ∧ (i 1).val < win1_2.index t (1 : Fin 2) * 32 + 32; omega

/-- After the region's last point the output array holds the product of the two arrays as the region found them. -/
theorem product (c : Dev nD) : (dat1 V c).arrAt 2 cfg1.N = mm (left V c) (right V c) :=
  (dat1 V c).arrAt_eq_of_cover 2 (mm (left V c) (right V c)) (fun t _ => flushed_eq V c t) covered

end Cert.KernelIdeal.Blocks1

end
-- ==== Proof.Blocks2.lean ====
/-
  Region 2 of the program: the pipelined product of the [12000, 12000] matrix, taken 240 rows at a time, with the whole
  [12000, 32] matrix. Grid point t loads the 240 rows of the left matrix from row 240·t on and the whole right matrix, and stores their product,
  which is the same 240 rows of the whole product: entry (p, q) of a row block's product is the sum over k of
  left (240·t + p, k) · right (k, q). The 50 row blocks tile the 12000 rows (row r lies in block r / 240), so after the last
  point the output array holds the whole product of the two arrays as the region found them.
-/
import proofs.«143308_j19696720019795_2_alg».proof.Proof.Gen.KernelIdeal.Frame
import proofs.«143308_j19696720019795_2_alg».proof.Proof.MatProd

set_option maxRecDepth 16384

noncomputable section

namespace Cert.KernelIdeal.Blocks2

open Cert.KernelIdeal Cert.KernelIdeal.Gen Cert.MatProd
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The left matrix as the region finds it. -/
abbrev left (c : Dev nD) : FVec Ideal S12000x12000 .f32 := V c main_arg5
/-- The right matrix as the region finds it. -/
abbrev right (c : Dev nD) : FVec Ideal S12000x32 .f32 := V c main_v6

theorem origin : (![0, 0] : Fin 2 → Nat) = fun _ => 0 := funext fun a => by fin_cases a <;> rfl

/-- The body's one store is the product of the two blocks it loads. -/
theorem store_eq (x0 : Vec Ideal S240x12000 .f32) (x1 : Vec Ideal S12000x32 .f32) : k2_pay1 x0 x1 = mm x0 x1 := by
  unfold k2_pay1
  show FloatOps.matmul dot_S240x12000_S12000x32_S240x32_1_0_0_1_n_n none x0 (shapeCast S12000x32 x1 shapeCasts_S12000x32_S12000x32)
    (constant (F := Ideal) S240x32 .f32 0x00000000#32) = _
  rw [shapeCast_self]
  exact matmul_zero_eq _ rfl rfl rfl rfl rfl rfl none x0 x1

/-- Where the three windows' blocks sit at each grid point: the left matrix's and the output's row block is the point's
    number, and every other block index is zero. -/
theorem where_blocks : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is its row block of the whole product. -/
theorem flushed_eq (c : Dev nD) (t : Fin cfg2.N) :
    (dat2 V c).flushed 2 t = ((cfg2.win 2).blk t).view.read (Elt Ideal) (mm (left V c) (right V c)) := by
  show (cfg2.win 2).cut (grid2.coords t) ((dat2 V c).after 2 t) = _
  rw [after2_2]
  unfold out2_2
  rw [View.canon_unit_zero origin]
  simp only [View.ld_unit_zero (S := S240x12000) origin, View.ld_unit_zero (S := S12000x32) origin]
  rw [store_eq]
  obtain ⟨e0, e1, e2, e3, e4, e5⟩ := where_blocks t
  funext j
  show ∑ k : Fin 12000, left V c (((cfg2.win 0).blk t).view.emb (ix2 (j 0) k)) * right V c (((cfg2.win 1).blk t).view.emb (ix2 k (j 1)))
    = ∑ k : Fin 12000, left V c (ix2 ((((cfg2.win 2).blk t).view.emb j) 0) k) * right V c (ix2 k ((((cfg2.win 2).blk t).view.emb j) 1))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 240 + 1 * (j 0).val = win2_2.index t (0 : Fin 2) * 240 + 1 * (j 0).val; omega
    | ⟨1, _⟩ => show win2_0.index t (1 : Fin 2) * 12000 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 12000 + 1 * k.val = k.val; omega
    | ⟨1, _⟩ => show win2_1.index t (1 : Fin 2) * 32 + 1 * (j 1).val = win2_2.index t (1 : Fin 2) * 32 + 1 * (j 1).val; omega
  rw [h0, h1]
  rfl

/-- An entry of the output array is in point `t`'s block iff each coordinate is in the block's range on its axis. -/
theorem mem_block (t : Fin cfg2.N) (i : S12000x32.Idx) :
    i ∈ ((cfg2.win 2).blk t).view.set ↔ ∀ a : Fin 2, win2_2.index t a * S240x32.size a ≤ (i a).val ∧ (i a).val < win2_2.index t a * S240x32.size a + S240x32.size a := by
  show i ∈ ((View.whole main_v11).slice (win2_2.rect t)).set ↔ _
  rw [View.set_slice_whole, Rect.mem_set_unit]
  exact Iff.rfl

/-- Every entry of the output array lies in some point's block: row r in block r / 240. -/
theorem covered (i : S12000x32.Idx) :
    ∃ t : Fin cfg2.N, (cfg2.win 2).flush t = true ∧ i ∈ ((cfg2.win 2).blk t).view.set := by
  have hi0 : (i 0).val < 12000 := (i 0).isLt
  have hi1 : (i 1).val < 32 := (i 1).isLt
  let t : Fin cfg2.N := ⟨(i 0).val / 240, by show (i 0).val / 240 < 50; omega⟩
  obtain ⟨e0, e1, e2, e3, e4, e5⟩ := where_blocks t
  have e4' : win2_2.index t (0 : Fin 2) = (i 0).val / 240 := e4
  refine ⟨t, flush2_2 t, ?_⟩
  rw [mem_block]
  intro a
  match a with
  | ⟨0, _⟩ => show win2_2.index t (0 : Fin 2) * 240 ≤ (i 0).val ∧ (i 0).val < win2_2.index t (0 : Fin 2) * 240 + 240; omega
  | ⟨1, _⟩ => show win2_2.index t (1 : Fin 2) * 32 ≤ (i 1).val ∧ (i 1).val < win2_2.index t (1 : Fin 2) * 32 + 32; omega

/-- After the region's last point the output array holds the product of the two arrays as the region found them. -/
theorem product (c : Dev nD) : (dat2 V c).arrAt 2 cfg2.N = mm (left V c) (right V c) :=
  (dat2 V c).arrAt_eq_of_cover 2 (mm (left V c) (right V c)) (fun t _ => flushed_eq V c t) covered

end Cert.KernelIdeal.Blocks2

end
-- ==== Proof.Blocks3.lean ====
/-
  Region 3 of the program: the pipelined product of the [8000, 12000] matrix, taken 200 rows at a time, with the whole
  [12000, 32] matrix. Grid point t loads the 200 rows of the left matrix from row 200·t on and the whole right matrix, and stores their product,
  which is the same 200 rows of the whole product: entry (p, q) of a row block's product is the sum over k of
  left (200·t + p, k) · right (k, q). The 40 row blocks tile the 8000 rows (row r lies in block r / 200), so after the last
  point the output array holds the whole product of the two arrays as the region found them.
-/
import proofs.«143308_j19696720019795_2_alg».proof.Proof.Gen.KernelIdeal.Frame
import proofs.«143308_j19696720019795_2_alg».proof.Proof.MatProd

set_option maxRecDepth 16384

noncomputable section

namespace Cert.KernelIdeal.Blocks3

open Cert.KernelIdeal Cert.KernelIdeal.Gen Cert.MatProd
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The left matrix as the region finds it. -/
abbrev left (c : Dev nD) : FVec Ideal S8000x12000 .f32 := V c main_arg6
/-- The right matrix as the region finds it. -/
abbrev right (c : Dev nD) : FVec Ideal S12000x32 .f32 := V c main_v7

theorem origin : (![0, 0] : Fin 2 → Nat) = fun _ => 0 := funext fun a => by fin_cases a <;> rfl

/-- The body's one store is the product of the two blocks it loads. -/
theorem store_eq (x0 : Vec Ideal S200x12000 .f32) (x1 : Vec Ideal S12000x32 .f32) : k3_pay1 x0 x1 = mm x0 x1 := by
  unfold k3_pay1
  show FloatOps.matmul dot_S200x12000_S12000x32_S200x32_1_0_0_1_n_n none x0 (shapeCast S12000x32 x1 shapeCasts_S12000x32_S12000x32)
    (constant (F := Ideal) S200x32 .f32 0x00000000#32) = _
  rw [shapeCast_self]
  exact matmul_zero_eq _ rfl rfl rfl rfl rfl rfl none x0 x1

/-- Where the three windows' blocks sit at each grid point: the left matrix's and the output's row block is the point's
    number, and every other block index is zero. -/
theorem where_blocks : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is its row block of the whole product. -/
theorem flushed_eq (c : Dev nD) (t : Fin cfg3.N) :
    (dat3 V c).flushed 2 t = ((cfg3.win 2).blk t).view.read (Elt Ideal) (mm (left V c) (right V c)) := by
  show (cfg3.win 2).cut (grid3.coords t) ((dat3 V c).after 2 t) = _
  rw [after3_2]
  unfold out3_2
  rw [View.canon_unit_zero origin]
  simp only [View.ld_unit_zero (S := S200x12000) origin, View.ld_unit_zero (S := S12000x32) origin]
  rw [store_eq]
  obtain ⟨e0, e1, e2, e3, e4, e5⟩ := where_blocks t
  funext j
  show ∑ k : Fin 12000, left V c (((cfg3.win 0).blk t).view.emb (ix2 (j 0) k)) * right V c (((cfg3.win 1).blk t).view.emb (ix2 k (j 1)))
    = ∑ k : Fin 12000, left V c (ix2 ((((cfg3.win 2).blk t).view.emb j) 0) k) * right V c (ix2 k ((((cfg3.win 2).blk t).view.emb j) 1))
  refine Finset.sum_congr rfl fun k _ => ?_
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 200 + 1 * (j 0).val = win3_2.index t (0 : Fin 2) * 200 + 1 * (j 0).val; omega
    | ⟨1, _⟩ => show win3_0.index t (1 : Fin 2) * 12000 + 1 * k.val = k.val; omega
  have h1 : ((cfg3.win 1).blk t).view.emb (ix2 k (j 1)) = ix2 k ((((cfg3.win 2).blk t).view.emb j) 1) := by
    funext a; apply Fin.ext
    match a with
    | ⟨0, _⟩ => show win3_1.index t (0 : Fin 2) * 12000 + 1 * k.val = k.val; omega
    | ⟨1, _⟩ => show win3_1.index t (1 : Fin 2) * 32 + 1 * (j 1).val = win3_2.index t (1 : Fin 2) * 32 + 1 * (j 1).val; omega
  rw [h0, h1]
  rfl

/-- An entry of the output array is in point `t`'s block iff each coordinate is in the block's range on its axis. -/
theorem mem_block (t : Fin cfg3.N) (i : S8000x32.Idx) :
    i ∈ ((cfg3.win 2).blk t).view.set ↔ ∀ a : Fin 2, win3_2.index t a * S200x32.size a ≤ (i a).val ∧ (i a).val < win3_2.index t a * S200x32.size a + S200x32.size a := by
  show i ∈ ((View.whole main_v13).slice (win3_2.rect t)).set ↔ _
  rw [View.set_slice_whole, Rect.mem_set_unit]
  exact Iff.rfl

/-- Every entry of the output array lies in some point's block: row r in block r / 200. -/
theorem covered (i : S8000x32.Idx) :
    ∃ t : Fin cfg3.N, (cfg3.win 2).flush t = true ∧ i ∈ ((cfg3.win 2).blk t).view.set := by
  have hi0 : (i 0).val < 8000 := (i 0).isLt
  have hi1 : (i 1).val < 32 := (i 1).isLt
  let t : Fin cfg3.N := ⟨(i 0).val / 200, by show (i 0).val / 200 < 40; omega⟩
  obtain ⟨e0, e1, e2, e3, e4, e5⟩ := where_blocks t
  have e4' : win3_2.index t (0 : Fin 2) = (i 0).val / 200 := e4
  refine ⟨t, flush3_2 t, ?_⟩
  rw [mem_block]
  intro a
  match a with
  | ⟨0, _⟩ => show win3_2.index t (0 : Fin 2) * 200 ≤ (i 0).val ∧ (i 0).val < win3_2.index t (0 : Fin 2) * 200 + 200; omega
  | ⟨1, _⟩ => show win3_2.index t (1 : Fin 2) * 32 ≤ (i 1).val ∧ (i 1).val < win3_2.index t (1 : Fin 2) * 32 + 32; omega

/-- After the region's last point the output array holds the product of the two arrays as the region found them. -/
theorem product (c : Dev nD) : (dat3 V c).arrAt 2 cfg3.N = mm (left V c) (right V c) :=
  (dat3 V c).arrAt_eq_of_cover 2 (mm (left V c) (right V c)) (fun t _ => flushed_eq V c t) covered

end Cert.KernelIdeal.Blocks3

end
-- ==== Proof.Blocks4.lean ====
/-
  Region 4 of the program: the pipelined product of the [8000, 8000] matrix, taken 400 rows at a time, with the whole
  [8000, 32] matrix. Grid point t loads the 400 rows of the left matrix from row 400·t on and the whole right matrix, and stores their product,
  which is the same 400 rows of the whole product: entry (p, q) of a row block's product is the sum over k of
  left (400·t + p, k) · right (k, q). The 20 row blocks tile the 8000 rows (row r lies in block r / 400), so after the last
  point the output array holds the whole product of the two arrays as the region found them.
-/
import proofs.«143308_j19696720019795_2_alg».proof.Proof.Gen.KernelIdeal.Frame
import proofs.«143308_j19696720019795_2_alg».proof.Proof.MatProd

set_option maxRecDepth 16384

noncomputable section

namespace Cert.KernelIdeal.Blocks4

open Cert.KernelIdeal Cert.KernelIdeal.Gen Cert.MatProd
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The left matrix as the region finds it. -/
abbrev left (c : Dev nD) : FVec Ideal S8000x8000 .f32 := V c main_arg7
/-- The right matrix as the region finds it. -/
abbrev right (c : Dev nD) : FVec Ideal S8000x32 .f32 := V c main_v8

theorem origin : (![0, 0] : Fin 2 → Nat) = fun _ => 0 := funext fun a => by fin_cases a <;> rfl

/-- The body's one store is the product of the two blocks it loads. -/
theorem store_eq (x0 : Vec Ideal S400x8000 .f32) (x1 : Vec Ideal S8000x32 .f32) : k4_pay1 x0 x1 = mm x0 x1 := by
  unfold k4_pay1
  show FloatOps.matmul dot_S400x8000_S8000x32_S400x32_1_0_0_1_n_n none x0 (shapeCast S8000x32 x1 shapeCasts_S8000x32_S8000x32)
    (constant (F := Ideal) S400x32 .f32 0x00000000#32) = _
  rw [shapeCast_self]
  exact matmul_zero_eq _ rfl rfl rfl rfl rfl rfl none x0 x1

/-- Where the three windows' blocks sit at each grid point: the left matrix's and the output's row block is the point's
    number, and every other block index is zero. -/
theorem where_blocks : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is its row block of the whole product. -/
theorem flushed_eq (c : Dev nD) (t : Fin cfg4.N) :
    (dat4 V c).flushed 2 t = ((cfg4.win 2).blk t).view.read (Elt Ideal) (mm (left V c) (right V c)) := by
  show (cfg4.win 2).cut (grid4.coords t) ((dat4 V c).after 2 t) = _
  rw [after4_2]
  unfold out4_2
  rw [View.canon_unit_zero origin]
  simp only [View.ld_unit_zero (S := S400x8000) origin, View.ld_unit_zero (S := S8000x32) origin]
  rw [store_eq]
  obtain ⟨e0, e1, e2, e3, e4, e5⟩ := where_blocks t
  funext j
  show ∑ k : Fin 8000, left V c (((cfg4.win 0).blk t).view.emb (ix2 (j 0) k)) * right V c (((cfg4.win 1).blk t).view.emb (ix2 k (j 1)))
    = ∑ k : Fin 8000, left V c (ix2 ((((cfg4.win 2).blk t).view.emb j) 0) k) * right V c (ix2 k ((((cfg4.win 2).blk t).view.emb j) 1))
  refine Finset.sum_congr rfl fun k _ => ?_
  have h0 : ((cfg4.win 0).blk t).view.emb (ix2 (j 0) k) = ix2 ((((cfg4.win 2).blk t).view.emb j) 0) k := by
    funext a; apply Fin.ext
    match a with
    | ⟨0, _⟩ => show win4_0.index t (0 : Fin 2) * 400 + 1 * (j 0).val = win4_2.index t (0 : Fin 2) * 400 + 1 * (j 0).val; omega
    | ⟨1, _⟩ => show win4_0.index t (1 : Fin 2) * 8000 + 1 * k.val = k.val; omega
  have h1 : ((cfg4.win 1).blk t).view.emb (ix2 k (j 1)) = ix2 k ((((cfg4.win 2).blk t).view.emb j) 1) := by
    funext a; apply Fin.ext
    match a with
    | ⟨0, _⟩ => show win4_1.index t (0 : Fin 2) * 8000 + 1 * k.val = k.val; omega
    | ⟨1, _⟩ => show win4_1.index t (1 : Fin 2) * 32 + 1 * (j 1).val = win4_2.index t (1 : Fin 2) * 32 + 1 * (j 1).val; omega
  rw [h0, h1]
  rfl

/-- An entry of the output array is in point `t`'s block iff each coordinate is in the block's range on its axis. -/
theorem mem_block (t : Fin cfg4.N) (i : S8000x32.Idx) :
    i ∈ ((cfg4.win 2).blk t).view.set ↔ ∀ a : Fin 2, win4_2.index t a * S400x32.size a ≤ (i a).val ∧ (i a).val < win4_2.index t a * S400x32.size a + S400x32.size a := by
  show i ∈ ((View.whole main_v14).slice (win4_2.rect t)).set ↔ _
  rw [View.set_slice_whole, Rect.mem_set_unit]
  exact Iff.rfl

/-- Every entry of the output array lies in some point's block: row r in block r / 400. -/
theorem covered (i : S8000x32.Idx) :
    ∃ t : Fin cfg4.N, (cfg4.win 2).flush t = true ∧ i ∈ ((cfg4.win 2).blk t).view.set := by
  have hi0 : (i 0).val < 8000 := (i 0).isLt
  have hi1 : (i 1).val < 32 := (i 1).isLt
  let t : Fin cfg4.N := ⟨(i 0).val / 400, by show (i 0).val / 400 < 20; omega⟩
  obtain ⟨e0, e1, e2, e3, e4, e5⟩ := where_blocks t
  have e4' : win4_2.index t (0 : Fin 2) = (i 0).val / 400 := e4
  refine ⟨t, flush4_2 t, ?_⟩
  rw [mem_block]
  intro a
  match a with
  | ⟨0, _⟩ => show win4_2.index t (0 : Fin 2) * 400 ≤ (i 0).val ∧ (i 0).val < win4_2.index t (0 : Fin 2) * 400 + 400; omega
  | ⟨1, _⟩ => show win4_2.index t (1 : Fin 2) * 32 ≤ (i 1).val ∧ (i 1).val < win4_2.index t (1 : Fin 2) * 32 + 32; omega

/-- After the region's last point the output array holds the product of the two arrays as the region found them. -/
theorem product (c : Dev nD) : (dat4 V c).arrAt 2 cfg4.N = mm (left V c) (right V c) :=
  (dat4 V c).arrAt_eq_of_cover 2 (mm (left V c) (right V c)) (fun t _ => flushed_eq V c t) covered

end Cert.KernelIdeal.Blocks4

end
-- ==== Proof.KernelValue.lean ====
/-
  What the program's three result arrays hold after its run, as functions of the arguments' launch contents.

  Before the first region the host multiplies the vertex features by the two vertex weight matrices laid side by side and cuts the
  product into its column halves, the same for the edge features, and multiplies the face features by their one weight matrix:
  five projections, each the product of a feature matrix with ONE weight matrix (`MatProd.cols_left` / `cols_right`). No later
  item writes an argument or a projection. Each region then leaves the product of its operator with its projection in its
  output array, and the host adds the two edge products and the two face products. So with `mm` the matrix product:
    result 0 = Gv2v · (xv · Wv2v),
    result 1 = Gv2e · (xv · Wv2e) + Ge2e · (xe · We2e),
    result 2 = Ge2f · (xe · We2f) + Gf2f · (xf · Wf2f),
  entry by entry in the extended reals. The contents at each boundary between the program's items are the generated fold
  `Gen.W0 … Gen.W8`; an array no item writes is read back through the fold to where it was last written.
-/
import proofs.«143308_j19696720019795_2_alg».proof.Proof.Gen.KernelIdeal.Frame
import proofs.«143308_j19696720019795_2_alg».proof.Proof.KernelRun
import proofs.«143308_j19696720019795_2_alg».proof.Proof.MatProd
import proofs.«143308_j19696720019795_2_alg».proof.Proof.Blocks0
import proofs.«143308_j19696720019795_2_alg».proof.Proof.Blocks1
import proofs.«143308_j19696720019795_2_alg».proof.Proof.Blocks2
import proofs.«143308_j19696720019795_2_alg».proof.Proof.Blocks3
import proofs.«143308_j19696720019795_2_alg».proof.Proof.Blocks4
import Idealize.ShloMosaic.Lib.StableHlo.Run

set_option maxRecDepth 16384

noncomputable section

namespace Cert.KernelIdeal.Values

open Cert.KernelIdeal Cert.KernelIdeal.Gen Cert.MatProd
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## The arguments at launch, as matrices -/

/-- The launch contents of the vertex features. -/
abbrev xv (c : Dev nD) : FVec Ideal S6000x32 .f32 := m ((c : Thread nD τ).loc main_arg0)
/-- The launch contents of the edge features. -/
abbrev xe (c : Dev nD) : FVec Ideal S12000x32 .f32 := m ((c : Thread nD τ).loc main_arg1)
/-- The launch contents of the face features. -/
abbrev xf (c : Dev nD) : FVec Ideal S8000x32 .f32 := m ((c : Thread nD τ).loc main_arg2)
/-- The launch contents of the vertex-to-vertex operator. -/
abbrev Gv2v (c : Dev nD) : FVec Ideal S6000x6000 .f32 := m ((c : Thread nD τ).loc main_arg3)
/-- The launch contents of the vertex-to-edge operator. -/
abbrev Gv2e (c : Dev nD) : FVec Ideal S12000x6000 .f32 := m ((c : Thread nD τ).loc main_arg4)
/-- The launch contents of the edge-to-edge operator. -/
abbrev Ge2e (c : Dev nD) : FVec Ideal S12000x12000 .f32 := m ((c : Thread nD τ).loc main_arg5)
/-- The launch contents of the edge-to-face operator. -/
abbrev Ge2f (c : Dev nD) : FVec Ideal S8000x12000 .f32 := m ((c : Thread nD τ).loc main_arg6)
/-- The launch contents of the face-to-face operator. -/
abbrev Gf2f (c : Dev nD) : FVec Ideal S8000x8000 .f32 := m ((c : Thread nD τ).loc main_arg7)
/-- The launch contents of the vertex-to-vertex weights. -/
abbrev Wv2v (c : Dev nD) : FVec Ideal S32x32 .f32 := m ((c : Thread nD τ).loc main_arg8)
/-- The launch contents of the vertex-to-edge weights. -/
abbrev Wv2e (c : Dev nD) : FVec Ideal S32x32 .f32 := m ((c : Thread nD τ).loc main_arg9)
/-- The launch contents of the edge-to-edge weights. -/
abbrev We2e (c : Dev nD) : FVec Ideal S32x32 .f32 := m ((c : Thread nD τ).loc main_arg10)
/-- The launch contents of the edge-to-face weights. -/
abbrev We2f (c : Dev nD) : FVec Ideal S32x32 .f32 := m ((c : Thread nD τ).loc main_arg11)
/-- The launch contents of the face-to-face weights. -/
abbrev Wf2f (c : Dev nD) : FVec Ideal S32x32 .f32 := m ((c : Thread nD τ).loc main_arg12)

/-! ## At the first region's entry: the five projections, and the operators as launched -/

/-- The left column half of xv · [Wv2v | Wv2e]. -/
theorem proj_v2v (c : Dev nD) : W1 m ρ c (Proc.devRef .tc main_v2) = mm (xv m c) (Wv2v m c) := by
  have e : W1 m ρ c (Proc.devRef .tc main_v2) = extractStridedSlice S6000x32 ![0, 0]
      (Host.dotGeneral dot_S6000x32_S32x64_S6000x64_1_0_0_1_n_n none (xv m c)
        (concatenate S32x64 1 [⟨S32x32, Wv2v m c⟩, ⟨S32x32, Wv2e m c⟩] concatenates_S32x32_S32x32_S32x64_d1))
      slices_S6000x64_S6000x32_0_0 := by
    show StableHlo.after hostOps0 (W0 m ρ c) (Proc.devRef .tc main_v2) = _
    after_results
  rw [e, show Host.dotGeneral dot_S6000x32_S32x64_S6000x64_1_0_0_1_n_n none (xv m c)
        (concatenate S32x64 1 [⟨S32x32, Wv2v m c⟩, ⟨S32x32, Wv2e m c⟩] concatenates_S32x32_S32x32_S32x64_d1) = _
      from hostDot_eq _ rfl rfl rfl rfl rfl rfl none .single _ _]
  exact cols_left _ _ _ _ _

/-- The right column half of xv · [Wv2v | Wv2e]. -/
theorem proj_v2e (c : Dev nD) : W1 m ρ c (Proc.devRef .tc main_v3) = mm (xv m c) (Wv2e m c) := by
  have e : W1 m ρ c (Proc.devRef .tc main_v3) = extractStridedSlice S6000x32 ![0, 32]
      (Host.dotGeneral dot_S6000x32_S32x64_S6000x64_1_0_0_1_n_n none (xv m c)
        (concatenate S32x64 1 [⟨S32x32, Wv2v m c⟩, ⟨S32x32, Wv2e m c⟩] concatenates_S32x32_S32x32_S32x64_d1))
      slices_S6000x64_S6000x32_0_32 := by
    show StableHlo.after hostOps0 (W0 m ρ c) (Proc.devRef .tc main_v3) = _
    after_results
  rw [e, show Host.dotGeneral dot_S6000x32_S32x64_S6000x64_1_0_0_1_n_n none (xv m c)
        (concatenate S32x64 1 [⟨S32x32, Wv2v m c⟩, ⟨S32x32, Wv2e m c⟩] concatenates_S32x32_S32x32_S32x64_d1) = _
      from hostDot_eq _ rfl rfl rfl rfl rfl rfl none .single _ _]
  exact cols_right _ _ _ _ _

/-- The left column half of xe · [We2e | We2f]. -/
theorem proj_e2e (c : Dev nD) : W1 m ρ c (Proc.devRef .tc main_v6) = mm (xe m c) (We2e m c) := by
  have e : W1 m ρ c (Proc.devRef .tc main_v6) = extractStridedSlice S12000x32 ![0, 0]
      (Host.dotGeneral dot_S12000x32_S32x64_S12000x64_1_0_0_1_n_n none (xe m c)
        (concatenate S32x64 1 [⟨S32x32, We2e m c⟩, ⟨S32x32, We2f m c⟩] concatenates_S32x32_S32x32_S32x64_d1))
      slices_S12000x64_S12000x32_0_0 := by
    show StableHlo.after hostOps0 (W0 m ρ c) (Proc.devRef .tc main_v6) = _
    after_results
  rw [e, show Host.dotGeneral dot_S12000x32_S32x64_S12000x64_1_0_0_1_n_n none (xe m c)
        (concatenate S32x64 1 [⟨S32x32, We2e m c⟩, ⟨S32x32, We2f m c⟩] concatenates_S32x32_S32x32_S32x64_d1) = _
      from hostDot_eq _ rfl rfl rfl rfl rfl rfl none .single _ _]
  exact cols_left _ _ _ _ _

/-- The right column half of xe · [We2e | We2f]. -/
theorem proj_e2f (c : Dev nD) : W1 m ρ c (Proc.devRef .tc main_v7) = mm (xe m c) (We2f m c) := by
  have e : W1 m ρ c (Proc.devRef .tc main_v7) = extractStridedSlice S12000x32 ![0, 32]
      (Host.dotGeneral dot_S12000x32_S32x64_S12000x64_1_0_0_1_n_n none (xe m c)
        (concatenate S32x64 1 [⟨S32x32, We2e m c⟩, ⟨S32x32, We2f m c⟩] concatenates_S32x32_S32x32_S32x64_d1))
      slices_S12000x64_S12000x32_0_32 := by
    show StableHlo.after hostOps0 (W0 m ρ c) (Proc.devRef .tc main_v7) = _
    after_results
  rw [e, show Host.dotGeneral dot_S12000x32_S32x64_S12000x64_1_0_0_1_n_n none (xe m c)
        (concatenate S32x64 1 [⟨S32x32, We2e m c⟩, ⟨S32x32, We2f m c⟩] concatenates_S32x32_S32x32_S32x64_d1) = _
      from hostDot_eq _ rfl rfl rfl rfl rfl rfl none .single _ _]
  exact cols_right _ _ _ _ _

/-- xf · Wf2f. -/
theorem proj_f2f (c : Dev nD) : W1 m ρ c (Proc.devRef .tc main_v8) = mm (xf m c) (Wf2f m c) := by
  have e : W1 m ρ c (Proc.devRef .tc main_v8)
      = Host.dotGeneral dot_S8000x32_S32x32_S8000x32_1_0_0_1_n_n none (xf m c) (Wf2f m c) := by
    show StableHlo.after hostOps0 (W0 m ρ c) (Proc.devRef .tc main_v8) = _
    after_results
  rw [e]
  exact hostDot_eq _ rfl rfl rfl rfl rfl rfl none .single _ _

/-- The host operations before the first region do not write Gv2v. -/
theorem kept_Gv2v (c : Dev nD) : W1 m ρ c (Proc.devRef .tc main_arg3) = Gv2v m c := by
  show StableHlo.after hostOps0 (W0 m ρ c) (Proc.devRef .tc main_arg3) = _
  after_results
/-- The host operations before the first region do not write Gv2e. -/
theorem kept_Gv2e (c : Dev nD) : W1 m ρ c (Proc.devRef .tc main_arg4) = Gv2e m c := by
  show StableHlo.after hostOps0 (W0 m ρ c) (Proc.devRef .tc main_arg4) = _
  after_results
/-- The host operations before the first region do not write Ge2e. -/
theorem kept_Ge2e (c : Dev nD) : W1 m ρ c (Proc.devRef .tc main_arg5) = Ge2e m c := by
  show StableHlo.after hostOps0 (W0 m ρ c) (Proc.devRef .tc main_arg5) = _
  after_results
/-- The host operations before the first region do not write Ge2f. -/
theorem kept_Ge2f (c : Dev nD) : W1 m ρ c (Proc.devRef .tc main_arg6) = Ge2f m c := by
  show StableHlo.after hostOps0 (W0 m ρ c) (Proc.devRef .tc main_arg6) = _
  after_results
/-- The host operations before the first region do not write Gf2f. -/
theorem kept_Gf2f (c : Dev nD) : W1 m ρ c (Proc.devRef .tc main_arg7) = Gf2f m c := by
  show StableHlo.after hostOps0 (W0 m ρ c) (Proc.devRef .tc main_arg7) = _
  after_results

/-! ## Through the two one-line host stretches: an array they do not write -/

theorem W5_main_v9 (c : Dev nD) : W5 m ρ c (Proc.devRef .tc main_v9) = W4 m ρ c (Proc.devRef .tc main_v9) := by
  show StableHlo.after hostOps3 (W4 m ρ c) (Proc.devRef .tc main_v9) = _
  after_results
theorem W5_main_arg6 (c : Dev nD) : W5 m ρ c (Proc.devRef .tc main_arg6) = W4 m ρ c (Proc.devRef .tc main_arg6) := by
  show StableHlo.after hostOps3 (W4 m ρ c) (Proc.devRef .tc main_arg6) = _
  after_results
theorem W5_main_v7 (c : Dev nD) : W5 m ρ c (Proc.devRef .tc main_v7) = W4 m ρ c (Proc.devRef .tc main_v7) := by
  show StableHlo.after hostOps3 (W4 m ρ c) (Proc.devRef .tc main_v7) = _
  after_results
theorem W5_main_arg7 (c : Dev nD) : W5 m ρ c (Proc.devRef .tc main_arg7) = W4 m ρ c (Proc.devRef .tc main_arg7) := by
  show StableHlo.after hostOps3 (W4 m ρ c) (Proc.devRef .tc main_arg7) = _
  after_results
theorem W5_main_v8 (c : Dev nD) : W5 m ρ c (Proc.devRef .tc main_v8) = W4 m ρ c (Proc.devRef .tc main_v8) := by
  show StableHlo.after hostOps3 (W4 m ρ c) (Proc.devRef .tc main_v8) = _
  after_results
theorem W8_main_v9 (c : Dev nD) : W8 m ρ c (Proc.devRef .tc main_v9) = W7 m ρ c (Proc.devRef .tc main_v9) := by
  show StableHlo.after hostOps5 (W7 m ρ c) (Proc.devRef .tc main_v9) = _
  after_results
theorem W8_main_v12 (c : Dev nD) : W8 m ρ c (Proc.devRef .tc main_v12) = W7 m ρ c (Proc.devRef .tc main_v12) := by
  show StableHlo.after hostOps5 (W7 m ρ c) (Proc.devRef .tc main_v12) = _
  after_results

/-! ## What each region leaves in its output array -/

/-- Region 0: Gv2v · (xv · Wv2v). -/
theorem out0 (c : Dev nD) : W2 m ρ c (Proc.devRef .tc main_v9) = mm (Gv2v m c) (mm (xv m c) (Wv2v m c)) := by
  rw [show W2 m ρ c (Proc.devRef .tc main_v9) = (dat0 (V1 m ρ) c).arrAt 2 cfg0.N from W2_arr m ρ c 2, Blocks0.product]
  show mm (M := 6000) (K := 6000) (N := 32) (W1 m ρ c (Proc.devRef .tc main_arg3)) (W1 m ρ c (Proc.devRef .tc main_v2)) = _
  rw [kept_Gv2v, proj_v2v]

/-- Region 1: Gv2e · (xv · Wv2e). -/
theorem out1 (c : Dev nD) : W3 m ρ c (Proc.devRef .tc main_v10) = mm (Gv2e m c) (mm (xv m c) (Wv2e m c)) := by
  rw [show W3 m ρ c (Proc.devRef .tc main_v10) = (dat1 (V2 m ρ) c).arrAt 2 cfg1.N from W3_arr m ρ c 2, Blocks1.product]
  show mm (M := 12000) (K := 6000) (N := 32) (W2 m ρ c (Proc.devRef .tc main_arg4)) (W2 m ρ c (Proc.devRef .tc main_v3)) = _
  rw [W2_of_ne m ρ c main_arg4 (by decide), W2_of_ne m ρ c main_v3 (by decide), kept_Gv2e, proj_v2e]

/-- Region 2: Ge2e · (xe · We2e). -/
theorem out2 (c : Dev nD) : W4 m ρ c (Proc.devRef .tc main_v11) = mm (Ge2e m c) (mm (xe m c) (We2e m c)) := by
  rw [show W4 m ρ c (Proc.devRef .tc main_v11) = (dat2 (V3 m ρ) c).arrAt 2 cfg2.N from W4_arr m ρ c 2, Blocks2.product]
  show mm (M := 12000) (K := 12000) (N := 32) (W3 m ρ c (Proc.devRef .tc main_arg5)) (W3 m ρ c (Proc.devRef .tc main_v6)) = _
  rw [W3_of_ne m ρ c main_arg5 (by decide), W3_of_ne m ρ c main_v6 (by decide),
    W2_of_ne m ρ c main_arg5 (by decide), W2_of_ne m ρ c main_v6 (by decide), kept_Ge2e, proj_e2e]

/-- Region 3: Ge2f · (xe · We2f). -/
theorem out3 (c : Dev nD) : W6 m ρ c (Proc.devRef .tc main_v13) = mm (Ge2f m c) (mm (xe m c) (We2f m c)) := by
  rw [show W6 m ρ c (Proc.devRef .tc main_v13) = (dat3 (V5 m ρ) c).arrAt 2 cfg3.N from W6_arr m ρ c 2, Blocks3.product]
  show mm (M := 8000) (K := 12000) (N := 32) (W5 m ρ c (Proc.devRef .tc main_arg6)) (W5 m ρ c (Proc.devRef .tc main_v7)) = _
  rw [W5_main_arg6, W5_main_v7,
    W4_of_ne m ρ c main_arg6 (by decide), W4_of_ne m ρ c main_v7 (by decide),
    W3_of_ne m ρ c main_arg6 (by decide), W3_of_ne m ρ c main_v7 (by decide),
    W2_of_ne m ρ c main_arg6 (by decide), W2_of_ne m ρ c main_v7 (by decide), kept_Ge2f, proj_e2f]

/-- Region 4: Gf2f · (xf · Wf2f). -/
theorem out4 (c : Dev nD) : W7 m ρ c (Proc.devRef .tc main_v14) = mm (Gf2f m c) (mm (xf m c) (Wf2f m c)) := by
  rw [show W7 m ρ c (Proc.devRef .tc main_v14) = (dat4 (V6 m ρ) c).arrAt 2 cfg4.N from W7_arr m ρ c 2, Blocks4.product]
  show mm (M := 8000) (K := 8000) (N := 32) (W6 m ρ c (Proc.devRef .tc main_arg7)) (W6 m ρ c (Proc.devRef .tc main_v8)) = _
  rw [W6_of_ne m ρ c main_arg7 (by decide), W6_of_ne m ρ c main_v8 (by decide), W5_main_arg7, W5_main_v8,
    W4_of_ne m ρ c main_arg7 (by decide), W4_of_ne m ρ c main_v8 (by decide),
    W3_of_ne m ρ c main_arg7 (by decide), W3_of_ne m ρ c main_v8 (by decide),
    W2_of_ne m ρ c main_arg7 (by decide), W2_of_ne m ρ c main_v8 (by decide), kept_Gf2f, proj_f2f]

/-! ## The three results -/

/-- Result 0, written by region 0 and by nothing after it. -/
theorem result0 (c : Dev nD) : W8 m ρ c (Proc.devRef .tc main_v9) = mm (Gv2v m c) (mm (xv m c) (Wv2v m c)) := by
  rw [W8_main_v9, W7_of_ne m ρ c main_v9 (by decide), W6_of_ne m ρ c main_v9 (by decide), W5_main_v9,
    W4_of_ne m ρ c main_v9 (by decide), W3_of_ne m ρ c main_v9 (by decide), out0]

/-- Result 1, the host's sum of regions 1 and 2's outputs. -/
theorem result1 (c : Dev nD) : W8 m ρ c (Proc.devRef .tc main_v12)
    = addf (mm (Gv2e m c) (mm (xv m c) (Wv2e m c))) (mm (Ge2e m c) (mm (xe m c) (We2e m c))) := by
  rw [W8_main_v12, W7_of_ne m ρ c main_v12 (by decide), W6_of_ne m ρ c main_v12 (by decide)]
  have e : W5 m ρ c (Proc.devRef .tc main_v12)
      = addf (F := Ideal) (s := S12000x32) (φ := .f32) (W4 m ρ c (Proc.devRef .tc main_v10)) (W4 m ρ c (Proc.devRef .tc main_v11)) := by
    show StableHlo.after hostOps3 (W4 m ρ c) (Proc.devRef .tc main_v12) = _
    after_results
  rw [e, W4_of_ne m ρ c main_v10 (by decide), out1, out2]

/-- Result 2, the host's sum of regions 3 and 4's outputs. -/
theorem result2 (c : Dev nD) : W8 m ρ c (Proc.devRef .tc main_v15)
    = addf (mm (Ge2f m c) (mm (xe m c) (We2f m c))) (mm (Gf2f m c) (mm (xf m c) (Wf2f m c))) := by
  have e : W8 m ρ c (Proc.devRef .tc main_v15)
      = addf (F := Ideal) (s := S8000x32) (φ := .f32) (W7 m ρ c (Proc.devRef .tc main_v13)) (W7 m ρ c (Proc.devRef .tc main_v14)) := by
    show StableHlo.after hostOps5 (W7 m ρ c) (Proc.devRef .tc main_v15) = _
    after_results
  rw [e, W7_of_ne m ρ c main_v13 (by decide), out3, out4]

/-! ## The run, with the results as matrix products -/

theorem run : θ_run defs (onTc (τ := τ) (main (F := Ideal))) ⟨m, fun _ => 0, ρ⟩ fun r => ∀ c : Dev nD,
      r.2.mem ((c.tc : Thread nD τ).loc main_v9) = mm (Gv2v m c) (mm (xv m c) (Wv2v m c))
      ∧ r.2.mem ((c.tc : Thread nD τ).loc main_v12) = addf (mm (Gv2e m c) (mm (xv m c) (Wv2e m c))) (mm (Ge2e m c) (mm (xe m c) (We2e m c)))
      ∧ r.2.mem ((c.tc : Thread nD τ).loc main_v15) = addf (mm (Ge2f m c) (mm (xe m c) (We2f m c))) (mm (Gf2f m c) (mm (xf m c) (Wf2f m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (result0 m ρ c), (h c).2.1.trans (result1 m ρ c),
      (h c).2.2.1.trans (result2 m ρ c), (h c).2.2.2⟩)
    (Cert.KernelIdeal.Results.run (F := Ideal) m ρ)

end Cert.KernelIdeal.Values

end
-- ==== Proof.RefValue.lean ====
/-
  What the reference's three results hold after its run, as functions of the arguments' launch contents.

  The reference is twelve host operations: five projections x · W, five products G · (x · W), and the two sums. Each product
  is the host's `dot_general` over the plain dimension numbers, which at the ideal values is the matrix product `mm`,
  entry (p, q) the sum over k of left (p, k) · right (k, q). So, with the generated run of the host operations:
    result 0 = Gv2v · (xv · Wv2v),
    result 1 = Gv2e · (xv · Wv2e) + Ge2e · (xe · We2e),
    result 2 = Ge2f · (xe · We2f) + Gf2f · (xf · Wf2f).
-/
import proofs.«143308_j19696720019795_2_alg».proof.Defs
import proofs.«143308_j19696720019795_2_alg».proof.Proof.Gen.ReferenceIdeal.Run
import proofs.«143308_j19696720019795_2_alg».proof.Proof.MatProd

noncomputable section

namespace Cert.ReferenceIdeal.Values

open Cert.ReferenceIdeal Cert.ReferenceIdeal.Gen Cert.MatProd
open Idealize.ShloMosaic Idealize.ShloMosaic.TcCoe Idealize.SL Idealize.SL.Sem

variable (m : (ℓ : Loc nD τ sig) → Buf (Elt Ideal) ℓ) (ρ : Dev nD → PrngReg)

/-! ## The arguments at launch, as matrices -/

/-- The launch contents of the vertex features. -/
abbrev xv (c : Dev nD) : FVec Ideal S6000x32 .f32 := m ((c : Thread nD τ).loc main_arg0)
/-- The launch contents of the edge features. -/
abbrev xe (c : Dev nD) : FVec Ideal S12000x32 .f32 := m ((c : Thread nD τ).loc main_arg1)
/-- The launch contents of the face features. -/
abbrev xf (c : Dev nD) : FVec Ideal S8000x32 .f32 := m ((c : Thread nD τ).loc main_arg2)
/-- The launch contents of the vertex-to-vertex operator. -/
abbrev Gv2v (c : Dev nD) : FVec Ideal S6000x6000 .f32 := m ((c : Thread nD τ).loc main_arg3)
/-- The launch contents of the vertex-to-edge operator. -/
abbrev Gv2e (c : Dev nD) : FVec Ideal S12000x6000 .f32 := m ((c : Thread nD τ).loc main_arg4)
/-- The launch contents of the edge-to-edge operator. -/
abbrev Ge2e (c : Dev nD) : FVec Ideal S12000x12000 .f32 := m ((c : Thread nD τ).loc main_arg5)
/-- The launch contents of the edge-to-face operator. -/
abbrev Ge2f (c : Dev nD) : FVec Ideal S8000x12000 .f32 := m ((c : Thread nD τ).loc main_arg6)
/-- The launch contents of the face-to-face operator. -/
abbrev Gf2f (c : Dev nD) : FVec Ideal S8000x8000 .f32 := m ((c : Thread nD τ).loc main_arg7)
/-- The launch contents of the vertex-to-vertex weights. -/
abbrev Wv2v (c : Dev nD) : FVec Ideal S32x32 .f32 := m ((c : Thread nD τ).loc main_arg8)
/-- The launch contents of the vertex-to-edge weights. -/
abbrev Wv2e (c : Dev nD) : FVec Ideal S32x32 .f32 := m ((c : Thread nD τ).loc main_arg9)
/-- The launch contents of the edge-to-edge weights. -/
abbrev We2e (c : Dev nD) : FVec Ideal S32x32 .f32 := m ((c : Thread nD τ).loc main_arg10)
/-- The launch contents of the edge-to-face weights. -/
abbrev We2f (c : Dev nD) : FVec Ideal S32x32 .f32 := m ((c : Thread nD τ).loc main_arg11)
/-- The launch contents of the face-to-face weights. -/
abbrev Wf2f (c : Dev nD) : FVec Ideal S32x32 .f32 := m ((c : Thread nD τ).loc main_arg12)

/-! ## The operations' composed terms are the matrix products -/

theorem result0 (c : Dev nD) :
    Host.dotGeneral dot_S6000x6000_S6000x32_S6000x32_1_0_0_1_n_n none (Gv2v m c)
        (Host.dotGeneral dot_S6000x32_S32x32_S6000x32_1_0_0_1_n_n none (xv m c) (Wv2v m c))
      = mm (Gv2v m c) (mm (xv m c) (Wv2v m c)) := by
  rw [show Host.dotGeneral dot_S6000x32_S32x32_S6000x32_1_0_0_1_n_n none (xv m c) (Wv2v m c) = mm (xv m c) (Wv2v m c)
    from hostDot_eq _ rfl rfl rfl rfl rfl rfl none .single _ _]
  exact hostDot_eq _ rfl rfl rfl rfl rfl rfl none .single _ _

theorem result1 (c : Dev nD) :
    addf (Host.dotGeneral dot_S12000x6000_S6000x32_S12000x32_1_0_0_1_n_n none (Gv2e m c)
          (Host.dotGeneral dot_S6000x32_S32x32_S6000x32_1_0_0_1_n_n none (xv m c) (Wv2e m c)))
        (Host.dotGeneral dot_S12000x12000_S12000x32_S12000x32_1_0_0_1_n_n none (Ge2e m c)
          (Host.dotGeneral dot_S12000x32_S32x32_S12000x32_1_0_0_1_n_n none (xe m c) (We2e m c)))
      = addf (mm (Gv2e m c) (mm (xv m c) (Wv2e m c))) (mm (Ge2e m c) (mm (xe m c) (We2e m c))) := by
  rw [show Host.dotGeneral dot_S6000x32_S32x32_S6000x32_1_0_0_1_n_n none (xv m c) (Wv2e m c) = mm (xv m c) (Wv2e m c)
      from hostDot_eq _ rfl rfl rfl rfl rfl rfl none .single _ _,
    show Host.dotGeneral dot_S12000x32_S32x32_S12000x32_1_0_0_1_n_n none (xe m c) (We2e m c) = mm (xe m c) (We2e m c)
      from hostDot_eq _ rfl rfl rfl rfl rfl rfl none .single _ _,
    show Host.dotGeneral dot_S12000x6000_S6000x32_S12000x32_1_0_0_1_n_n none (Gv2e m c) (mm (xv m c) (Wv2e m c)) = mm (Gv2e m c) (mm (xv m c) (Wv2e m c))
      from hostDot_eq _ rfl rfl rfl rfl rfl rfl none .single _ _,
    show Host.dotGeneral dot_S12000x12000_S12000x32_S12000x32_1_0_0_1_n_n none (Ge2e m c) (mm (xe m c) (We2e m c)) = mm (Ge2e m c) (mm (xe m c) (We2e m c))
      from hostDot_eq _ rfl rfl rfl rfl rfl rfl none .single _ _]

theorem result2 (c : Dev nD) :
    addf (Host.dotGeneral dot_S8000x12000_S12000x32_S8000x32_1_0_0_1_n_n none (Ge2f m c)
          (Host.dotGeneral dot_S12000x32_S32x32_S12000x32_1_0_0_1_n_n none (xe m c) (We2f m c)))
        (Host.dotGeneral dot_S8000x8000_S8000x32_S8000x32_1_0_0_1_n_n none (Gf2f m c)
          (Host.dotGeneral dot_S8000x32_S32x32_S8000x32_1_0_0_1_n_n none (xf m c) (Wf2f m c)))
      = addf (mm (Ge2f m c) (mm (xe m c) (We2f m c))) (mm (Gf2f m c) (mm (xf m c) (Wf2f m c))) := by
  rw [show Host.dotGeneral dot_S12000x32_S32x32_S12000x32_1_0_0_1_n_n none (xe m c) (We2f m c) = mm (xe m c) (We2f m c)
      from hostDot_eq _ rfl rfl rfl rfl rfl rfl none .single _ _,
    show Host.dotGeneral dot_S8000x32_S32x32_S8000x32_1_0_0_1_n_n none (xf m c) (Wf2f m c) = mm (xf m c) (Wf2f m c)
      from hostDot_eq _ rfl rfl rfl rfl rfl rfl none .single _ _,
    show Host.dotGeneral dot_S8000x12000_S12000x32_S8000x32_1_0_0_1_n_n none (Ge2f m c) (mm (xe m c) (We2f m c)) = mm (Ge2f m c) (mm (xe m c) (We2f m c))
      from hostDot_eq _ rfl rfl rfl rfl rfl rfl none .single _ _,
    show Host.dotGeneral dot_S8000x8000_S8000x32_S8000x32_1_0_0_1_n_n none (Gf2f m c) (mm (xf m c) (Wf2f m c)) = mm (Gf2f m c) (mm (xf m c) (Wf2f m c))
      from hostDot_eq _ rfl rfl rfl rfl rfl rfl none .single _ _]

/-! ## The run, with the results as matrix products -/

theorem run : θ_run defs (onTc (τ := τ) (main (F := Ideal))) ⟨m, fun _ => 0, ρ⟩ fun r => ∀ c : Dev nD,
      r.2.mem ((c.tc : Thread nD τ).loc main_v1) = mm (Gv2v m c) (mm (xv m c) (Wv2v m c))
      ∧ r.2.mem ((c.tc : Thread nD τ).loc main_v6) = addf (mm (Gv2e m c) (mm (xv m c) (Wv2e m c))) (mm (Ge2e m c) (mm (xe m c) (We2e m c)))
      ∧ r.2.mem ((c.tc : Thread nD τ).loc main_v11) = addf (mm (Ge2f m c) (mm (xe m c) (We2f m c))) (mm (Gf2f m c) (mm (xf m c) (Wf2f m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (result0 m c), (h c).2.1.trans (result1 m c),
      (h c).2.2.1.trans (result2 m c), (h c).2.2.2⟩)
    (Cert.ReferenceIdeal.Value.run (F := Ideal) m ρ)

end Cert.ReferenceIdeal.Values

end
-- ==== Proof.lean ====
/-
  The proof of `Cert.Claim`: the kernel program and its reference compute, at the ideal values, the same three matrices.

  The reference computes  zv = Gv2v · (xv · Wv2v),  ze = Gv2e · (xv · Wv2e) + Ge2e · (xe · We2e)  and
  zf = Ge2f · (xe · We2f) + Gf2f · (xf · Wf2f)  with the host's products. The kernel program multiplies xv once by
  [Wv2v | Wv2e] and xe once by [We2e | We2f] and cuts the column halves apart, runs each product G · h as a pipelined
  region over row blocks of G, and adds the partial products on the host. With `mm` the matrix product over the extended
  reals (entry (p, q) the finite sum over k of left (p, k) · right (k, q)):
    * a column half of x · [a | b] is x · a, or x · b (Proof/MatProd.lean);
    * a region's row blocks tile its output, and a row block of G times h is that row block of G · h (Proof/Blocks0 … 4);
    * the three results, read back through the program's items, are the three expressions above (Proof/KernelValue.lean),
      and so are the reference's (Proof/RefValue.lean).
  Both sides are the SAME expression in `mm` and the host's addition, so no law of the extended reals is needed beyond
  the sums being what they are, and the precondition is not used. The idealization rewrote nothing, so `preserves` asks
  nothing; the frames of the two kernel programs are the generated ones and the reference's is its generated run.
-/
import proofs.«143308_j19696720019795_2_alg».proof.Defs
import proofs.«143308_j19696720019795_2_alg».proof.Proof.Gen.Kernel
import proofs.«143308_j19696720019795_2_alg».proof.Proof.Gen.Kernel.Frame
import proofs.«143308_j19696720019795_2_alg».proof.Proof.Gen.KernelIdeal
import proofs.«143308_j19696720019795_2_alg».proof.Proof.Gen.KernelIdeal.Frame
import proofs.«143308_j19696720019795_2_alg».proof.Proof.Gen.ReferenceIdeal
import proofs.«143308_j19696720019795_2_alg».proof.Proof.Gen.ReferenceIdeal.Run
import proofs.«143308_j19696720019795_2_alg».proof.Proof.Gen.Pre_finite_inputs
import proofs.«143308_j19696720019795_2_alg».proof.Proof.MatProd
import proofs.«143308_j19696720019795_2_alg».proof.Proof.KernelValue
import proofs.«143308_j19696720019795_2_alg».proof.Proof.RefValue
import Idealize.ShloMosaic.Adequacy
import Idealize.ShloMosaic.Init

noncomputable section

namespace Cert.Proof

open Idealize.ShloMosaic Idealize.SL.Sem Cert.MatProd

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- A product of three matrices is the same when each factor is. -/
theorem mm_mm_congr {M K L N : Nat} {G G' : FVec Ideal ⟨2, ![M, K]⟩ .f32} {x x' : FVec Ideal ⟨2, ![K, L]⟩ .f32}
    {w w' : FVec Ideal ⟨2, ![L, N]⟩ .f32} (hG : G' = G) (hx : x' = x) (hw : w' = w) :
    mm G' (mm x' w') = mm G (mm x w) := by
  subst hG hx hw; rfl

/-- From memories that agree on the thirteen arguments both programs end with the same three matrices. -/
theorem algebraic : Cert.algebraic_KernelIdeal_ReferenceIdeal := by
  intro m ρ m' ρ' _ hagree
  refine ⟨fun c => mm (Cert.KernelIdeal.Values.Gv2v m c) (mm (Cert.KernelIdeal.Values.xv m c) (Cert.KernelIdeal.Values.Wv2v m c)),
    fun c => addf (mm (Cert.KernelIdeal.Values.Gv2e m c) (mm (Cert.KernelIdeal.Values.xv m c) (Cert.KernelIdeal.Values.Wv2e m c)))
      (mm (Cert.KernelIdeal.Values.Ge2e m c) (mm (Cert.KernelIdeal.Values.xe m c) (Cert.KernelIdeal.Values.We2e m c))),
    fun c => addf (mm (Cert.KernelIdeal.Values.Ge2f m c) (mm (Cert.KernelIdeal.Values.xe m c) (Cert.KernelIdeal.Values.We2f m c)))
      (mm (Cert.KernelIdeal.Values.Gf2f m c) (mm (Cert.KernelIdeal.Values.xf m c) (Cert.KernelIdeal.Values.Wf2f m c))),
    Cert.KernelIdeal.Values.run m ρ, ?_⟩
  refine (θ_run Cert.ReferenceIdeal.defs _ _).mono (fun r h c => ?_) (Cert.ReferenceIdeal.Values.run m' ρ')
  obtain ⟨a0, a1, a2, a3, a4, a5, a6, a7, a8, a9, a10, a11, a12⟩ := hagree c
  obtain ⟨h0, h1, h2, hargs⟩ := h c
  refine ⟨h0.trans ?_, h1.trans ?_, h2.trans ?_, hargs⟩
  · exact mm_mm_congr (M := 6000) (K := 6000) (L := 32) (N := 32) a3 a0 a8
  · exact congrArg₂ (addf (F := Ideal) (s := Cert.KernelIdeal.S12000x32) (φ := .f32))
      (mm_mm_congr (M := 12000) (K := 6000) (L := 32) (N := 32) a4 a0 a9)
      (mm_mm_congr (M := 12000) (K := 12000) (L := 32) (N := 32) a5 a1 a10)
  · exact congrArg₂ (addf (F := Ideal) (s := Cert.KernelIdeal.S8000x32) (φ := .f32))
      (mm_mm_congr (M := 8000) (K := 12000) (L := 32) (N := 32) a6 a1 a11)
      (mm_mm_congr (M := 8000) (K := 8000) (L := 32) (N := 32) a7 a2 a12)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
